-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x1024 : Shape := ⟨3, ![4, 512, 1024]⟩
abbrev S4x64x1024 : Shape := ⟨3, ![4, 64, 1024]⟩
abbrev S_ : Shape := ⟨0, ![]⟩

class Facts : Prop where
  bcast_S_S4x512x1024 : S_.BroadcastsInDim S4x512x1024 (![] : Fin 0 → Fin S4x512x1024.rank)
  reducesTo_S4x512x1024_S_d0_1_2 : S4x512x1024.ReducesTo [0, 1, 2] S_
  h_S_ : 0 < S_.numel
  bcast_S_S4x64x1024 : S_.BroadcastsInDim S4x64x1024 (![] : Fin 0 → Fin S4x64x1024.rank)
  reducesTo_S4x64x1024_S_d0_1_2 : S4x64x1024.ReducesTo [0, 1, 2] S_

variable [Facts]

def fn {F : FTy → Type} [FloatOps F] (main_arg0 : FVec F S4x512x1024 .f32) (main_arg1 : FVec F S4x64x1024 .f32) : IVec S_ 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_c : IVec S_ 1 := constantI S_ 1 1#1
  let main_v3 : IVec S_ 1 := (fun x v => Host.reduce IntOp.andi x v reducesTo_S4x512x1024_S_d0_1_2 h_S_) main_v2 main_c
  let main_v4 : FVec F S4x64x1024 .f32 := Host.absf main_arg1
  let main_cst_0 : FVec F S_ .f32 := constant S_ .f32 0x7F800000#32
  let main_v5 : FVec F S4x64x1024 .f32 := broadcastInDim S4x64x1024 ![] bcast_S_S4x64x1024 main_cst_0
  let main_v6 : IVec S4x64x1024 1 := cmpf .olt main_v4 main_v5
  let main_c_1 : IVec S_ 1 := constantI S_ 1 1#1
  let main_v7 : IVec S_ 1 := (fun x v => Host.reduce IntOp.andi x v reducesTo_S4x64x1024_S_d0_1_2 h_S_) main_v6 main_c_1
  let main_v8 : IVec S_ 1 := andi main_v3 main_v7
  main_v8
-- ==== Kernel.lean ====
abbrev S4x512x1024 : Shape := ⟨3, ![4, 512, 1024]⟩
abbrev S4x64x1024 : Shape := ⟨3, ![4, 64, 1024]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S64x1024 : Shape := ⟨2, ![64, 1024]⟩
abbrev S64 : Shape := ⟨1, ![64]⟩
abbrev S64x1 : Shape := ⟨2, ![64, 1]⟩
abbrev S4x512x64x1024 : Shape := ⟨4, ![4, 512, 64, 1024]⟩
abbrev S1x32x1024 : Shape := ⟨3, ![1, 32, 1024]⟩
abbrev S1x64x1024 : Shape := ⟨3, ![1, 64, 1024]⟩
abbrev S1x32x64x1024 : Shape := ⟨4, ![1, 32, 64, 1024]⟩
abbrev S1x32x1x1024 : Shape := ⟨4, ![1, 32, 1, 1024]⟩
abbrev S1x1x64x1024 : Shape := ⟨4, ![1, 1, 64, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x64x1024, .f32⟩
  | .hbm, ⟨2, _⟩ => ⟨S2048x1024, .f32⟩
  | .hbm, ⟨3, _⟩ => ⟨S256x1024, .f32⟩
  | .hbm, ⟨4, _⟩ => ⟨S2048x1024, .f32⟩
  | .hbm, ⟨5, _⟩ => ⟨S256x1024, .f32⟩
  | .hbm, ⟨6, _⟩ => ⟨S4x512x1024, .f32⟩
  | .hbm, ⟨7, _⟩ => ⟨S4x64x1024, .f32⟩
  | .hbm, ⟨8, _⟩ => ⟨S4x512x64x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x32x64x1024, .f32⟩
  | .local _ .vmem, ⟨13, _⟩ => ⟨S1x32x64x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x32x64x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S4x512x1024_S2048x1024 : S4x512x1024.ShapeCasts S2048x1024
  shapeCasts_S4x64x1024_S256x1024 : S4x64x1024.ShapeCasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S64x1024_S64 : S64x1024.Reduces [1] S64
  shapeCasts_S64_S64x1 : S64.ShapeCasts S64x1
  broadcasts_S64x1_S64x1024 : S64x1.Broadcasts S64x1024
  iota_S64x1024_d1_w32 : S64x1024.Iotas .tc 32 [1]
  shapeCasts_S2048x1024_S4x512x1024 : S2048x1024.ShapeCasts S4x512x1024
  shapeCasts_S256x1024_S4x64x1024 : S256x1024.ShapeCasts S4x64x1024
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S1x32x1024 : S1x32x1024.ShapeCasts S1x32x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S1x64x1024 : S1x64x1024.ShapeCasts S1x64x1024
  shapeCasts_S1x32x1024_S1x32x1x1024 : S1x32x1024.ShapeCasts S1x32x1x1024
  shapeCasts_S1x64x1024_S1x1x64x1024 : S1x64x1024.ShapeCasts S1x1x64x1024
  broadcasts_S1x32x1x1024_S1x32x64x1024 : S1x32x1x1024.Broadcasts S1x32x64x1024
  broadcasts_S1x1x64x1024_S1x32x64x1024 : S1x1x64x1024.Broadcasts S1x32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S2048x1024.size a
  hwx0_1 : ∀ i : grid0.Coords, EltTy.bits .f32 = 32 ∨ (Rect.block (s := S2048x1024) S256x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S256x1024.size a
  hwx1_0 : ∀ i : grid1.Coords, EltTy.bits .f32 = 32 ∨ (Rect.block (s := S256x1024) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S256x1024.size a
  hwx1_1 : ∀ i : grid1.Coords, EltTy.bits .f32 = 32 ∨ (Rect.block (s := S256x1024) S64x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x32x1024.size a ≤ S4x512x1024.size a
  hwx2_0 : ∀ i : grid2.Coords, EltTy.bits .f32 = 32 ∨ (Rect.block (s := S4x512x1024) S1x32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S4x64x1024.size a
  hwx2_1 : ∀ i : grid2.Coords, EltTy.bits .f32 = 32 ∨ (Rect.block (s := S4x64x1024) S1x64x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x32x64x1024.size a ≤ S4x512x64x1024.size a
  hwx2_2 : ∀ i : grid2.Coords, EltTy.bits .f32 = 32 ∨ (Rect.block (s := S4x512x64x1024) S1x32x64x1024.size (cc2_transform_2 i) (hinb2_2 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S1x32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x32x64x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x512x1024 : Shape := ⟨3, ![4, 512, 1024]⟩
abbrev S4x64x1024 : Shape := ⟨3, ![4, 64, 1024]⟩
abbrev S_ : Shape := ⟨0, ![]⟩
abbrev S4x512 : Shape := ⟨2, ![4, 512]⟩
abbrev S4x512x1 : Shape := ⟨3, ![4, 512, 1]⟩
abbrev S4x64 : Shape := ⟨2, ![4, 64]⟩
abbrev S4x64x1 : Shape := ⟨3, ![4, 64, 1]⟩
abbrev S4x64x1023 : Shape := ⟨3, ![4, 64, 1023]⟩
abbrev S4x512x1x1024 : Shape := ⟨4, ![4, 512, 1, 1024]⟩
abbrev S4x1x64x1024 : Shape := ⟨4, ![4, 1, 64, 1024]⟩
abbrev S4x512x64x1024 : Shape := ⟨4, ![4, 512, 64, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x64x1024, .f32⟩
  | .hbm, ⟨2, _⟩ => ⟨S_, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S4x512x1, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S4x512x1, .f32⟩
  | .hbm, ⟨15, _⟩ => ⟨S4x512x1024, .f32⟩
  | .hbm, ⟨16, _⟩ => ⟨S4x512x1024, .f32⟩
  | .hbm, ⟨17, _⟩ => ⟨S_, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S4x64x1, .f32⟩
  | .hbm, ⟨23, _⟩ => ⟨S4x64x1024, .f32⟩
  | .hbm, ⟨24, _⟩ => ⟨S4x64x1024, .f32⟩
  | .hbm, ⟨25, _⟩ => ⟨S4x64x1024, .f32⟩
  | .hbm, ⟨26, _⟩ => ⟨S_, .f32⟩
  | .hbm, ⟨27, _⟩ => ⟨S4x64, .f32⟩
  | .hbm, ⟨28, _⟩ => ⟨S4x64x1, .f32⟩
  | .hbm, ⟨29, _⟩ => ⟨S4x64x1, .f32⟩
  | .hbm, ⟨30, _⟩ => ⟨S4x64x1024, .f32⟩
  | .hbm, ⟨31, _⟩ => ⟨S4x64x1024, .f32⟩
  | .hbm, ⟨32, _⟩ => ⟨S_, .f32⟩
  | .hbm, ⟨33, _⟩ => ⟨S4x64x1, .f32⟩
  | .hbm, ⟨34, _⟩ => ⟨S4x64x1023, .f32⟩
  | .hbm, ⟨35, _⟩ => ⟨S4x64x1024, .f32⟩
  | .hbm, ⟨36, _⟩ => ⟨S4x512x1x1024, .f32⟩
  | .hbm, ⟨37, _⟩ => ⟨S4x1x64x1024, .f32⟩
  | .hbm, ⟨38, _⟩ => ⟨S4x512x64x1024, .f32⟩
  | .hbm, ⟨39, _⟩ => ⟨S4x512x64x1024, .f32⟩
  | .hbm, ⟨40, _⟩ => ⟨S4x512x64x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_call1_cst : Ref sig .tc := ⟨.hbm, 17, rfl⟩
abbrev main_call1_v0 : Ref sig .tc := ⟨.hbm, 18, rfl⟩
abbrev main_call1_cst_0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_cst_1 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩

abbrev nD : Nat := 1
abbrev τ : Topo := Topo.v7x

variable {F : FTy → Type} [FloatOps F]

class Facts₀ : Prop where
  reducesTo_S4x512x1024_S4x512_d2 : S4x512x1024.ReducesTo [2] S4x512
  h_S_ : 0 < S_.numel
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512x1_S4x512x1024_0_1_2 : S4x512x1.BroadcastsInDim S4x512x1024 (![0, 1, 2] : Fin 3 → Fin S4x512x1024.rank)
  reducesTo_S4x64x1024_S4x64_d2 : S4x64x1024.ReducesTo [2] S4x64
  bcast_S_S4x64 : S_.BroadcastsInDim S4x64 (![] : Fin 0 → Fin S4x64.rank)
  bcast_S4x64_S4x64x1_0_1 : S4x64.BroadcastsInDim S4x64x1 (![0, 1] : Fin 2 → Fin S4x64x1.rank)
  bcast_S4x64x1_S4x64x1024_0_1_2 : S4x64x1.BroadcastsInDim S4x64x1024 (![0, 1, 2] : Fin 3 → Fin S4x64x1024.rank)
  bcast_S_S4x64x1 : S_.BroadcastsInDim S4x64x1 (![] : Fin 0 → Fin S4x64x1.rank)
  slices_S4x64x1024_S4x64x1023_0_0_1 : S4x64x1024.Slices ![0, 0, 1] S4x64x1023
  concatenates_S4x64x1_S4x64x1023_S4x64x1024_d2 : Shape.Concatenates [S4x64x1, S4x64x1023] S4x64x1024 2
  bcast_S4x512x1024_S4x512x1x1024_0_1_3 : S4x512x1024.BroadcastsInDim S4x512x1x1024 (![0, 1, 3] : Fin 3 → Fin S4x512x1x1024.rank)
  bcast_S4x64x1024_S4x1x64x1024_0_2_3 : S4x64x1024.BroadcastsInDim S4x1x64x1024 (![0, 2, 3] : Fin 3 → Fin S4x1x64x1024.rank)
  bcast_S4x512x1x1024_S4x512x64x1024_0_1_2_3 : S4x512x1x1024.BroadcastsInDim S4x512x64x1024 (![0, 1, 2, 3] : Fin 4 → Fin S4x512x64x1024.rank)
  bcast_S4x1x64x1024_S4x512x64x1024_0_1_2_3 : S4x1x64x1024.BroadcastsInDim S4x512x64x1024 (![0, 1, 2, 3] : Fin 4 → Fin S4x512x64x1024.rank)

variable [Facts₀]

class Facts : Prop extends Facts₀ where

variable [Facts]
-- ==== Proof.RowLogSoftmax.lean ====
/-
  What both programs compute, as plain functions on the extended reals.

  For a row `r` of logits, its maximum `M` is taken from −∞, and the row's log-softmax at position `k` is
  `(r k − M) − log (∑ⱼ exp (r j − M))`. The transcription network's logits `x0[b, t, ·]` and the prediction
  network's logits `x1[b, u, ·]` are each normalised this way along the vocabulary axis; the prediction side then has
  its column 0 (the blank symbol) set to zero; and the joint is the broadcast sum
  `out[b, t, u, v] = lsm(x0[b, t, ·]) v + lsmZ(x1[b, u, ·]) v`.

  The two-dimensional forms (`lsm2`, `lsmZ2`) are the same row functions on a matrix whose rows are the (batch, step)
  pairs laid out row-major, which is how one of the two programs stores the intermediate.
-/
import Idealize.ShloMosaic.PureOps.Ideal
import Idealize.ShloMosaic.Lib.ValueIdx
import Mathlib.Data.Finset.Fold

noncomputable section

namespace Cert.Joint

open Idealize.ShloMosaic Idealize.ShloMosaic.ValueIdx

/-- The float word for −∞ that a row maximum starts from. -/
abbrev negInf : EReal := Ideal.ofBits .f32 0xFF800000#32

/-- A row's maximum, started from −∞. -/
def rowMax {n : Nat} (r : Fin n → EReal) : EReal := (Finset.univ : Finset (Fin n)).fold max negInf r

/-- The row's log-softmax at `k`: the shifted logit minus the log of the sum of the shifted exponentials. -/
def rowLogSoftmax {n : Nat} (r : Fin n → EReal) (k : Fin n) : EReal :=
  (r k - rowMax r) - Ideal.log (∑ j : Fin n, Ideal.exp (r j - rowMax r))

/-- The same with position 0 replaced by zero. -/
def rowLogSoftmaxZ {n : Nat} (r : Fin n → EReal) (k : Fin n) : EReal :=
  if k.val = 0 then 0 else rowLogSoftmax r k

/-- Log-softmax along the rows of a matrix. -/
def lsm2 {R C : Nat} (x : (⟨2, ![R, C]⟩ : Shape).Idx → EReal) : (⟨2, ![R, C]⟩ : Shape).Idx → EReal :=
  fun j => rowLogSoftmax (fun k : Fin C => x (ix2 (j 0) k)) (j 1)

/-- Log-softmax along the rows of a matrix, column 0 zeroed. -/
def lsmZ2 {R C : Nat} (x : (⟨2, ![R, C]⟩ : Shape).Idx → EReal) : (⟨2, ![R, C]⟩ : Shape).Idx → EReal :=
  fun j => rowLogSoftmaxZ (fun k : Fin C => x (ix2 (j 0) k)) (j 1)

/-- Log-softmax along the last axis of a rank-3 array. -/
def lsm3 {A B C : Nat} (x : (⟨3, ![A, B, C]⟩ : Shape).Idx → EReal) : (⟨3, ![A, B, C]⟩ : Shape).Idx → EReal :=
  fun i => rowLogSoftmax (fun k : Fin C => x (ix3 (i 0) (i 1) k)) (i 2)

/-- Log-softmax along the last axis of a rank-3 array, column 0 zeroed. -/
def lsmZ3 {A B C : Nat} (x : (⟨3, ![A, B, C]⟩ : Shape).Idx → EReal) : (⟨3, ![A, B, C]⟩ : Shape).Idx → EReal :=
  fun i => rowLogSoftmaxZ (fun k : Fin C => x (ix3 (i 0) (i 1) k)) (i 2)

/-- The broadcast sum `a[b, t, v] + p[b, u, v]` over (b, t, u, v). -/
def bsum {B T U V : Nat} (a : (⟨3, ![B, T, V]⟩ : Shape).Idx → EReal) (p : (⟨3, ![B, U, V]⟩ : Shape).Idx → EReal) :
    (⟨4, ![B, T, U, V]⟩ : Shape).Idx → EReal :=
  fun i => a (ix3 (i 0) (i 1) (i 3)) + p (ix3 (i 0) (i 2) (i 3))

/-- The joint network's output from the two logit arrays. -/
def joint (x0 : (⟨3, ![4, 512, 1024]⟩ : Shape).Idx → EReal) (x1 : (⟨3, ![4, 64, 1024]⟩ : Shape).Idx → EReal) :
    (⟨4, ![4, 512, 64, 1024]⟩ : Shape).Idx → EReal :=
  bsum (lsm3 x0) (lsmZ3 x1)

/-- From −∞ the running maximum never falls below −∞, so taking the maximum with −∞ once more changes nothing. -/
theorem max_negInf_rowMax {n : Nat} (r : Fin n → EReal) : max negInf (rowMax r) = rowMax r :=
  max_eq_right ((Finset.le_fold_max _).mpr (Or.inl le_rfl))

/-- The row functions depend on the row only through its entries. -/
theorem rowLogSoftmax_congr {n : Nat} {r r' : Fin n → EReal} (h : ∀ k, r k = r' k) (k : Fin n) :
    rowLogSoftmax r k = rowLogSoftmax r' k := by
  rw [show r = r' from funext h]

theorem rowLogSoftmaxZ_congr {n : Nat} {r r' : Fin n → EReal} (h : ∀ k, r k = r' k) (k : Fin n) :
    rowLogSoftmaxZ r k = rowLogSoftmaxZ r' k := by
  rw [show r = r' from funext h]

end Cert.Joint

end
-- ==== Proof.BlockSoftmax.lean ====
/-
  One block of either normalisation kernel, read at the exact values.

  The body loads a block of rows, takes each row's maximum from −∞ by a lane reduction, subtracts it, exponentiates, sums
  the row by a second lane reduction, takes the logarithm and subtracts it from the shifted logits: the row-wise
  log-softmax of the block. The second kernel then replaces column 0 by zero, by selecting on the lane index.
-/
import proofs.«173288_j22462678958222_1_alg».proof.Proof.Gen.KernelIdeal.Skeleton
import proofs.«173288_j22462678958222_1_alg».proof.Proof.RowLogSoftmax
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Blocks

open Idealize.ShloMosaic Idealize.ShloMosaic.ValueIdx Cert.KernelIdeal Cert.KernelIdeal.Gen

namespace Softmax

/-! ## Indices and layout: the reduced axis, the column cast and the column broadcast -/

/-- Over a row index `p`, the index with `k` inserted on the reduced axis (the columns) is `(p, k)`. -/
theorem lift_row {R C : Nat} (h : (⟨2, ![R, C]⟩ : Shape).Reduces [1] ⟨1, ![R]⟩) (p : Fin R) (k : Fin C) :
    h.lift (ix1 p) k = ix2 p k := by
  funext c
  match c with
  | ⟨0, _⟩ => exact Fin.ext rfl
  | ⟨1, _⟩ => exact Fin.ext rfl

/-- A vector `[a]` cast to a column `[a, 1]` reads, at `(p, u)`, the vector at `p`: both have row-major position `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`: the unit axis is stretched, the row
    axis kept (when `a = 1` the row coordinate is `0` anyway). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A per-row vector kept as a column and broadcast along the rows reads, at `(p, q)`, the vector at `p`. -/
theorem column_apply {α : Type} {a b : ℕ} (v : (⟨1, ![a]⟩ : Shape).Idx → α)
    (hs : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hs) hb (ix2 p q) = v (ix1 p) :=
  (broadcastTo_a1_ab_apply _ hb p q).trans (shapeCast_a_a1_apply v hs p 0)

/-! ## The two lane reductions of a row -/

/-- The lane maximum from the word of −∞, at row `p`, is the row's maximum started from −∞. -/
theorem rowMax_apply {R C : Nat} (X : FVec Ideal ⟨2, ![R, C]⟩ .f32) (h : (⟨2, ![R, C]⟩ : Shape).Reduces [1] ⟨1, ![R]⟩)
    (hφ : FKind.Formats .f32) (hacc : (0xFF800000#32 : BitVec 32) = FKind.maximumf.neutral .f32 hφ) (p : Fin R) :
    multiReduction (F := Ideal) .maximumf [1] ⟨1, ![R]⟩ X 0xFF800000#32 h hφ hacc (ix1 p)
      = Cert.Joint.rowMax (fun k : Fin C => X (ix2 p k)) := by
  refine (Ideal.multiReduction_maximumf_single X _ h hφ hacc (ix1 p)).trans ?_
  unfold Cert.Joint.rowMax
  exact congrArg (fun f : Fin C → EReal => (Finset.univ : Finset (Fin C)).fold max Cert.Joint.negInf f)
    (funext fun k => congrArg X (lift_row h p k))

/-- The lane sum from the zero word, at row `p`, is the plain sum over the row. -/
theorem rowSum_apply {R C : Nat} (X : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (p : Fin R) :
    multiReduction (F := Ideal) .add [1] ⟨1, ![R]⟩ X 0x00000000#32 h hφ hacc (ix1 p) = ∑ k : Fin C, X (ix2 p k) := by
  refine (Ideal.multiReduction_add_single X _ h hφ hacc (ix1 p)).trans ?_
  exact Finset.sum_congr rfl fun k _ => congrArg X (lift_row h p k)

/-! ## The block's chain of operations at one index -/

/-- The shifted logits: the block minus its row maximum kept as a column and broadcast along the row. -/
theorem shifted_apply {R C : Nat} (x : FVec Ideal ⟨2, ![R, C]⟩ .f32)
    (hr : (⟨2, ![R, C]⟩ : Shape).Reduces [1] ⟨1, ![R]⟩) (hs : (⟨1, ![R]⟩ : Shape).ShapeCasts ⟨2, ![R, 1]⟩)
    (hb : (⟨2, ![R, 1]⟩ : Shape).Broadcasts ⟨2, ![R, C]⟩) (hφ : FKind.Formats .f32)
    (hmax : (0xFF800000#32 : BitVec 32) = FKind.maximumf.neutral .f32 hφ) (p : Fin R) (q : Fin C) :
    subf x (broadcastTo ⟨2, ![R, C]⟩
        (shapeCast ⟨2, ![R, 1]⟩ (multiReduction (F := Ideal) .maximumf [1] ⟨1, ![R]⟩ x 0xFF800000#32 hr hφ hmax) hs) hb) (ix2 p q)
      = x (ix2 p q) - Cert.Joint.rowMax (fun k : Fin C => x (ix2 p k)) := by
  rw [subf_apply, column_apply, rowMax_apply]

/-- The logarithm of the row sum of the exponentials, kept as a column and broadcast along the row. -/
theorem logSum_apply {R C : Nat} (y : FVec Ideal ⟨2, ![R, C]⟩ .f32)
    (hr : (⟨2, ![R, C]⟩ : Shape).Reduces [1] ⟨1, ![R]⟩) (hs : (⟨1, ![R]⟩ : Shape).ShapeCasts ⟨2, ![R, 1]⟩)
    (hb : (⟨2, ![R, 1]⟩ : Shape).Broadcasts ⟨2, ![R, C]⟩) (hφ : FKind.Formats .f32)
    (hadd : (0x00000000#32 : BitVec 32) = FKind.add.neutral .f32 hφ) (p : Fin R) (q : Fin C) :
    broadcastTo ⟨2, ![R, C]⟩
        (log (shapeCast ⟨2, ![R, 1]⟩ (multiReduction (F := Ideal) .add [1] ⟨1, ![R]⟩ (exp y) 0x00000000#32 hr hφ hadd) hs)) hb (ix2 p q)
      = Ideal.log (∑ k : Fin C, Ideal.exp (y (ix2 p k))) := by
  refine (broadcastTo_a1_ab_apply _ hb p q).trans ?_
  show Ideal.log (shapeCast ⟨2, ![R, 1]⟩ (multiReduction (F := Ideal) .add [1] ⟨1, ![R]⟩ (exp y) 0x00000000#32 hr hφ hadd) hs
    (ix2 p (0 : Fin 1))) = _
  rw [shapeCast_a_a1_apply, rowSum_apply]
  rfl

/-- The whole chain at `(p, q)`: the row-wise log-softmax of the block. -/
theorem block_apply {R C : Nat} (x : FVec Ideal ⟨2, ![R, C]⟩ .f32)
    (hr : (⟨2, ![R, C]⟩ : Shape).Reduces [1] ⟨1, ![R]⟩) (hs : (⟨1, ![R]⟩ : Shape).ShapeCasts ⟨2, ![R, 1]⟩)
    (hb : (⟨2, ![R, 1]⟩ : Shape).Broadcasts ⟨2, ![R, C]⟩) (hφ : FKind.Formats .f32)
    (hmax : (0xFF800000#32 : BitVec 32) = FKind.maximumf.neutral .f32 hφ)
    (hadd : (0x00000000#32 : BitVec 32) = FKind.add.neutral .f32 hφ) (p : Fin R) (q : Fin C) :
    subf
        (subf x (broadcastTo ⟨2, ![R, C]⟩
          (shapeCast ⟨2, ![R, 1]⟩ (multiReduction (F := Ideal) .maximumf [1] ⟨1, ![R]⟩ x 0xFF800000#32 hr hφ hmax) hs) hb))
        (broadcastTo ⟨2, ![R, C]⟩
          (log (shapeCast ⟨2, ![R, 1]⟩
            (multiReduction (F := Ideal) .add [1] ⟨1, ![R]⟩
              (exp (subf x (broadcastTo ⟨2, ![R, C]⟩
                (shapeCast ⟨2, ![R, 1]⟩ (multiReduction (F := Ideal) .maximumf [1] ⟨1, ![R]⟩ x 0xFF800000#32 hr hφ hmax) hs) hb)))
              0x00000000#32 hr hφ hadd) hs)) hb)
        (ix2 p q)
      = Cert.Joint.rowLogSoftmax (fun k : Fin C => x (ix2 p k)) q := by
  rw [subf_apply, logSum_apply, shifted_apply]
  unfold Cert.Joint.rowLogSoftmax
  exact congrArg (fun s : EReal => (x (ix2 p q) - Cert.Joint.rowMax (fun k : Fin C => x (ix2 p k))) - Ideal.log s)
    (Finset.sum_congr rfl fun k _ => congrArg Ideal.exp (shifted_apply x hr hs hb hφ hmax p k))

/-! ## The lane index compared with zero -/

/-- The lane index compared with zero: the one-bit word is `1` exactly at column 0 (a column number is below 2³², so its
    word is zero only when it is). -/
theorem lane_eq_zero (q : Fin 1024) :
    IntOp.cmpi .eq (BitVec.ofNat 32 q.val) 0#32 = if q.val = 0 then 1#1 else 0#1 := by
  by_cases hq : q.val = 0
  · rw [if_pos hq, hq]; rfl
  · rw [if_neg hq]
    have hne : BitVec.ofNat 32 q.val ≠ 0#32 := fun e => hq (by
      have h0 := congrArg BitVec.toNat e
      simp only [BitVec.toNat_ofNat] at h0
      have := q.isLt
      omega)
    show BitVec.ofBool (BitVec.ofNat 32 q.val == 0#32) = 0#1
    rw [beq_eq_false_iff_ne.mpr hne]
    rfl

end Softmax

/-! ## The two kernels' stored values -/

/-- The 256-row block: the stored value is the row-wise log-softmax of the loaded block. -/
theorem k0_pay1_eq (x : Vec Ideal S256x1024 .f32) :
    k0_pay1 (F := Ideal) x = Cert.Joint.lsm2 (R := 256) (C := 1024) x := by
  funext j
  obtain ⟨p, q, rfl⟩ : ∃ (p : Fin 256) (q : Fin 1024), j = ix2 p q := ⟨j 0, j 1, eq_ix2 j⟩
  unfold k0_pay1
  rw [shapeCast_self]
  exact Softmax.block_apply (R := 256) (C := 1024) x _ _ _ _ _ _ p q

/-- The 64-row block: the stored value is the row-wise log-softmax of the loaded block with column 0 zeroed. -/
theorem k1_pay1_eq (x : Vec Ideal S64x1024 .f32) :
    k1_pay1 (F := Ideal) x = Cert.Joint.lsmZ2 (R := 64) (C := 1024) x := by
  funext j
  obtain ⟨p, q, rfl⟩ : ∃ (p : Fin 64) (q : Fin 1024), j = ix2 p q := ⟨j 0, j 1, eq_ix2 j⟩
  unfold k1_pay1 Cert.Joint.lsmZ2 Cert.Joint.rowLogSoftmaxZ
  rw [shapeCast_self, select_apply]
  -- the condition: the lane index along the columns, compared with zero
  have hc : cmpi .eq (iota .tc S64x1024 32 [1] iota_S64x1024_d1_w32) (broadcast S64x1024 0#32) (ix2 p q)
      = if q.val = 0 then 1#1 else 0#1 := by
    show IntOp.cmpi .eq (iota .tc S64x1024 32 [1] iota_S64x1024_d1_w32 (ix2 p q)) 0#32 = _
    rw [iota_single_apply]
    exact Softmax.lane_eq_zero q
  -- the value kept off column 0: the same chain as the first kernel's, on 64 rows
  have hv := Softmax.block_apply (R := 64) (C := 1024) x reduces_S64x1024_S64 shapeCasts_S64_S64x1 broadcasts_S64x1_S64x1024
    (.inl rfl) rfl rfl p q
  rw [hc]
  by_cases hq : q.val = 0
  · -- column 0: the select takes the splat of the zero word, which is the extended real 0
    rw [if_pos hq, select_one]
    show Ideal.ofBits .f32 0x00000000#32 = if q.val = 0 then 0 else _
    rw [if_pos hq, Ideal.ofBits_zero_f32]
  · -- any other column: the select takes the log-softmax
    rw [if_neg hq, select_zero]
    show _ = if q.val = 0 then _ else _
    rw [if_neg hq]
    exact hv

end Cert.KernelIdeal.Blocks

end
-- ==== Proof.Normalize0.lean ====
/-
  The first normalisation call over its whole output array. The `[2048, 1024]` logits are cut into eight blocks of 256
  rows; grid point `t` loads block `t`, stores its row-wise log-softmax, and writes it back to rows `256 t … 256 t + 255`.
  A row's log-softmax depends on that row only, so block `t` of the result is block `t` of the row-wise log-softmax of
  the whole array, and the eight blocks tile it.
-/
import proofs.«173288_j22462678958222_1_alg».proof.Proof.Gen.KernelIdeal.Frame
import proofs.«173288_j22462678958222_1_alg».proof.Proof.RowLogSoftmax
import proofs.«173288_j22462678958222_1_alg».proof.Proof.BlockSoftmax
import Idealize.ShloMosaic.Lib.Pipeline.Value
import Idealize.ShloMosaic.Lib.ValueIdx

noncomputable section

namespace Cert.KernelIdeal.Normalize0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The body's one load and one store go through the whole block: their offsets are zero on both axes. -/
theorem zero_offsets : (![0, 0] : Fin 2 → Nat) = fun _ => 0 := funext fun a => by fin_cases a <;> rfl

/-- The index maps over the eight grid points: point `t` reads and writes the block at block index `(t, 0)`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A row's log-softmax reads that row only. Let `x` be a band of rows of `X`: element `y` of `x` sits in `X` at `e y`, where
    `e` shifts the row by a fixed offset `b` and keeps the column. Then row `p` of `x` is row `b + p` of `X`, entry by entry, so
    the row-wise log-softmax of the band at `j` is that of `X` at `e j`. -/
theorem lsm2_of_rows {R R' C : Nat} (X : (⟨2, ![R, C]⟩ : Shape).Idx → EReal) (x : (⟨2, ![R', C]⟩ : Shape).Idx → EReal)
    (e : (⟨2, ![R', C]⟩ : Shape).Idx → (⟨2, ![R, C]⟩ : Shape).Idx) (b : Nat)
    (hx : ∀ y, x y = X (e y))
    (he0 : ∀ y, ((e y) 0).val = b + (y 0).val) (he1 : ∀ y, ((e y) 1).val = (y 1).val)
    (j : (⟨2, ![R', C]⟩ : Shape).Idx) :
    Cert.Joint.lsm2 x j = Cert.Joint.lsm2 X (e j) := by
  obtain ⟨p, q, rfl⟩ : ∃ (p : Fin R') (q : Fin C), j = ix2 p q := ⟨j 0, j 1, eq_ix2 j⟩
  -- the column is kept
  have hq : (e (ix2 p q)) 1 = q := Fin.ext (he1 _)
  show Cert.Joint.rowLogSoftmax (fun k : Fin C => x (ix2 p k)) q
    = Cert.Joint.rowLogSoftmax (fun k : Fin C => X (ix2 ((e (ix2 p q)) 0) k)) ((e (ix2 p q)) 1)
  -- the two rows agree entry by entry: entry `k` of row `p` of the band sits in `X` at row `b + p`, column `k`
  refine (Cert.Joint.rowLogSoftmax_congr (fun k => ?_) q).trans (congrArg _ hq.symm)
  rw [hx]
  congr 1
  funext a; apply Fin.ext
  match a with
  | ⟨0, _⟩ => show ((e (ix2 p k)) 0).val = ((e (ix2 p q)) 0).val; exact (he0 (ix2 p k)).trans (he0 (ix2 p q)).symm
  | ⟨1, _⟩ => show ((e (ix2 p k)) 1).val = k.val; exact he1 _

/-- What grid point `t` writes back is block `t` of the row-wise log-softmax of the input array: the stored value is the
    row-wise log-softmax of the loaded block, the loaded block is rows `256 t … 256 t + 255` of the input, and the written
    block is the same rows of the output. -/
theorem flushed_eq (c : Dev nD) (t : Fin cfg0.N) :
    (dat0 (F := Ideal) V c).flushed 1 t
      = ((cfg0.win 1).blk t).view.read (Elt Ideal) (Cert.Joint.lsm2 (R := 2048) (C := 1024) (V c main_v0)) := by
  show (cfg0.win 1).cut (grid0.coords t) ((dat0 V c).after 1 t) = _
  rw [after0_1]
  unfold out0_1
  rw [View.canon_unit_zero zero_offsets]
  simp only [View.ld_unit_zero (S := S256x1024) zero_offsets]
  rw [Blocks.k0_pay1_eq]
  obtain ⟨e0, e1, e2, e3⟩ := block_index t
  funext j
  show Cert.Joint.lsm2 (R := 256) (C := 1024) (iblk0 V c 0 t) j
    = Cert.Joint.lsm2 (R := 2048) (C := 1024) (V c main_v0) (((cfg0.win 1).blk t).view.emb j)
  -- an element of a block sits in its array, on each axis, at block index × block size + 1 × its own coordinate;
  -- the input's and the output's block indices agree, so element `j` of either block sits at the same array index
  have hemb : ((cfg0.win 1).blk t).view.emb j = ((cfg0.win 0).blk t).view.emb j := by
    funext a; apply Fin.ext
    match a with
    | ⟨0, _⟩ => show win0_1.index t (0 : Fin 2) * 256 + 1 * (j 0).val = win0_0.index t (0 : Fin 2) * 256 + 1 * (j 0).val; omega
    | ⟨1, _⟩ => show win0_1.index t (1 : Fin 2) * 1024 + 1 * (j 1).val = win0_0.index t (1 : Fin 2) * 1024 + 1 * (j 1).val; omega
  rw [hemb]
  -- the loaded block is the band of rows at offset `256 t`, all columns
  exact lsm2_of_rows (V c main_v0) (iblk0 V c 0 t) (fun y => ((cfg0.win 0).blk t).view.emb y) (t.val * 256) (fun y => rfl)
    (fun y => by show win0_0.index t (0 : Fin 2) * 256 + 1 * (y 0).val = t.val * 256 + (y 0).val; omega)
    (fun y => by show win0_0.index t (1 : Fin 2) * 1024 + 1 * (y 1).val = (y 1).val; omega) j

/-- An index of the output array is in point `t`'s block iff each coordinate is in the block's range on its axis. -/
theorem mem_block (t : Fin cfg0.N) (i : S2048x1024.Idx) :
    i ∈ ((cfg0.win 1).blk t).view.set ↔ ∀ a : Fin 2, win0_1.index t a * S256x1024.size a ≤ (i a).val
      ∧ (i a).val < win0_1.index t a * S256x1024.size a + S256x1024.size a := by
  show i ∈ ((View.whole main_v2).slice (win0_1.rect t)).set ↔ _
  rw [View.set_slice_whole, Rect.mem_set_unit]
  exact Iff.rfl

/-- The eight blocks tile the array: row `r` lies in the block of point `r / 256`. -/
theorem rows_covered (i : S2048x1024.Idx) :
    ∃ t : Fin cfg0.N, (cfg0.win 1).flush t = true ∧ i ∈ ((cfg0.win 1).blk t).view.set := by
  have hi0 : (i 0).val < 2048 := (i 0).isLt
  have hi1 : (i 1).val < 1024 := (i 1).isLt
  obtain ⟨t, ht⟩ : ∃ t : Fin cfg0.N, t.val = (i 0).val / 256 :=
    ⟨⟨(i 0).val / 256, by show (i 0).val / 256 < 8; omega⟩, rfl⟩
  obtain ⟨e0, e1, e2, e3⟩ := block_index t
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1024 ≤ (i 1).val ∧ (i 1).val < win0_1.index t (1 : Fin 2) * 1024 + 1024; omega

/-- After the call the output array holds the row-wise log-softmax of the input array as the call found it. -/
theorem array_eq (c : Dev nD) :
    (dat0 (F := Ideal) V c).arrAt 1 cfg0.N = Cert.Joint.lsm2 (R := 2048) (C := 1024) (V c main_v0) :=
  (dat0 (F := Ideal) V c).arrAt_eq_of_cover 1 (Cert.Joint.lsm2 (R := 2048) (C := 1024) (V c main_v0))
    (fun t _ => flushed_eq V c t) rows_covered

end Cert.KernelIdeal.Normalize0

end
-- ==== Proof.Normalize1.lean ====
/-
  The second normalisation call over its whole output array. The `[256, 1024]` logits are cut into four blocks of 64
  rows; grid point `t` loads block `t`, stores its row-wise log-softmax with column 0 zeroed, and writes it back to rows
  `64 t … 64 t + 63`. Both the row function and the zeroing act inside a row, so block `t` of the result is block `t` of the
  same function of the whole array, and the four blocks tile it.
-/
import proofs.«173288_j22462678958222_1_alg».proof.Proof.Gen.KernelIdeal.Frame
import proofs.«173288_j22462678958222_1_alg».proof.Proof.RowLogSoftmax
import proofs.«173288_j22462678958222_1_alg».proof.Proof.BlockSoftmax
import Idealize.ShloMosaic.Lib.Pipeline.Value
import Idealize.ShloMosaic.Lib.ValueIdx

noncomputable section

namespace Cert.KernelIdeal.Normalize1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The body's one load and one store go through the whole block: their offsets are zero on both axes. -/
theorem zero_offsets : (![0, 0] : Fin 2 → Nat) = fun _ => 0 := funext fun a => by fin_cases a <;> rfl

/-- The index maps over the four grid points: point `t` reads and writes the block at block index `(t, 0)`. -/
theorem block_index : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- A row's log-softmax with position 0 zeroed reads that row only. Let `x` be a band of rows of `X`: element `y` of `x`
    sits in `X` at `e y`, where `e` shifts the row by a fixed offset `b` and keeps the column. Then row `p` of `x` is row
    `b + p` of `X`, entry by entry, and the column is the same, so that row function of the band at `j` is that of `X` at
    `e j`. -/
theorem lsmZ2_of_rows {R R' C : Nat} (X : (⟨2, ![R, C]⟩ : Shape).Idx → EReal) (x : (⟨2, ![R', C]⟩ : Shape).Idx → EReal)
    (e : (⟨2, ![R', C]⟩ : Shape).Idx → (⟨2, ![R, C]⟩ : Shape).Idx) (b : Nat)
    (hx : ∀ y, x y = X (e y))
    (he0 : ∀ y, ((e y) 0).val = b + (y 0).val) (he1 : ∀ y, ((e y) 1).val = (y 1).val)
    (j : (⟨2, ![R', C]⟩ : Shape).Idx) :
    Cert.Joint.lsmZ2 x j = Cert.Joint.lsmZ2 X (e j) := by
  obtain ⟨p, q, rfl⟩ : ∃ (p : Fin R') (q : Fin C), j = ix2 p q := ⟨j 0, j 1, eq_ix2 j⟩
  -- the column is kept
  have hq : (e (ix2 p q)) 1 = q := Fin.ext (he1 _)
  show Cert.Joint.rowLogSoftmaxZ (fun k : Fin C => x (ix2 p k)) q
    = Cert.Joint.rowLogSoftmaxZ (fun k : Fin C => X (ix2 ((e (ix2 p q)) 0) k)) ((e (ix2 p q)) 1)
  -- the two rows agree entry by entry: entry `k` of row `p` of the band sits in `X` at row `b + p`, column `k`
  refine (Cert.Joint.rowLogSoftmaxZ_congr (fun k => ?_) q).trans (congrArg _ hq.symm)
  rw [hx]
  congr 1
  funext a; apply Fin.ext
  match a with
  | ⟨0, _⟩ => show ((e (ix2 p k)) 0).val = ((e (ix2 p q)) 0).val; exact (he0 (ix2 p k)).trans (he0 (ix2 p q)).symm
  | ⟨1, _⟩ => show ((e (ix2 p k)) 1).val = k.val; exact he1 _

/-- What grid point `t` writes back is block `t` of the row-wise log-softmax, column 0 zeroed, of the input array: the
    stored value is that function of the loaded block, the loaded block is rows `64 t … 64 t + 63` of the input, and the
    written block is the same rows of the output. -/
theorem flushed_eq (c : Dev nD) (t : Fin cfg1.N) :
    (dat1 (F := Ideal) V c).flushed 1 t
      = ((cfg1.win 1).blk t).view.read (Elt Ideal) (Cert.Joint.lsmZ2 (R := 256) (C := 1024) (V c main_v1)) := by
  show (cfg1.win 1).cut (grid1.coords t) ((dat1 V c).after 1 t) = _
  rw [after1_1]
  unfold out1_1
  rw [View.canon_unit_zero zero_offsets]
  simp only [View.ld_unit_zero (S := S64x1024) zero_offsets]
  rw [Blocks.k1_pay1_eq]
  obtain ⟨e0, e1, e2, e3⟩ := block_index t
  funext j
  show Cert.Joint.lsmZ2 (R := 64) (C := 1024) (iblk1 V c 0 t) j
    = Cert.Joint.lsmZ2 (R := 256) (C := 1024) (V c main_v1) (((cfg1.win 1).blk t).view.emb j)
  -- an element of a block sits in its array, on each axis, at block index × block size + 1 × its own coordinate;
  -- the input's and the output's block indices agree, so element `j` of either block sits at the same array index
  have hemb : ((cfg1.win 1).blk t).view.emb j = ((cfg1.win 0).blk t).view.emb j := by
    funext a; apply Fin.ext
    match a with
    | ⟨0, _⟩ => show win1_1.index t (0 : Fin 2) * 64 + 1 * (j 0).val = win1_0.index t (0 : Fin 2) * 64 + 1 * (j 0).val; omega
    | ⟨1, _⟩ => show win1_1.index t (1 : Fin 2) * 1024 + 1 * (j 1).val = win1_0.index t (1 : Fin 2) * 1024 + 1 * (j 1).val; omega
  rw [hemb]
  -- the loaded block is the band of rows at offset `64 t`, all columns
  exact lsmZ2_of_rows (V c main_v1) (iblk1 V c 0 t) (fun y => ((cfg1.win 0).blk t).view.emb y) (t.val * 64) (fun y => rfl)
    (fun y => by show win1_0.index t (0 : Fin 2) * 64 + 1 * (y 0).val = t.val * 64 + (y 0).val; omega)
    (fun y => by show win1_0.index t (1 : Fin 2) * 1024 + 1 * (y 1).val = (y 1).val; omega) j

/-- An index of the output array is in point `t`'s block iff each coordinate is in the block's range on its axis. -/
theorem mem_block (t : Fin cfg1.N) (i : S256x1024.Idx) :
    i ∈ ((cfg1.win 1).blk t).view.set ↔ ∀ a : Fin 2, win1_1.index t a * S64x1024.size a ≤ (i a).val
      ∧ (i a).val < win1_1.index t a * S64x1024.size a + S64x1024.size a := by
  show i ∈ ((View.whole main_v3).slice (win1_1.rect t)).set ↔ _
  rw [View.set_slice_whole, Rect.mem_set_unit]
  exact Iff.rfl

/-- The four blocks tile the array: row `r` lies in the block of point `r / 64`. -/
theorem rows_covered (i : S256x1024.Idx) :
    ∃ t : Fin cfg1.N, (cfg1.win 1).flush t = true ∧ i ∈ ((cfg1.win 1).blk t).view.set := by
  have hi0 : (i 0).val < 256 := (i 0).isLt
  have hi1 : (i 1).val < 1024 := (i 1).isLt
  obtain ⟨t, ht⟩ : ∃ t : Fin cfg1.N, t.val = (i 0).val / 64 :=
    ⟨⟨(i 0).val / 64, by show (i 0).val / 64 < 4; omega⟩, rfl⟩
  obtain ⟨e0, e1, e2, e3⟩ := block_index t
  refine ⟨t, flush1_1 t, ?_⟩
  rw [mem_block]
  intro a
  match a with
  | ⟨0, _⟩ => show win1_1.index t (0 : Fin 2) * 64 ≤ (i 0).val ∧ (i 0).val < win1_1.index t (0 : Fin 2) * 64 + 64; omega
  | ⟨1, _⟩ => show win1_1.index t (1 : Fin 2) * 1024 ≤ (i 1).val ∧ (i 1).val < win1_1.index t (1 : Fin 2) * 1024 + 1024; omega

/-- After the call the output array holds the row-wise log-softmax, column 0 zeroed, of the input array as the call found it. -/
theorem array_eq (c : Dev nD) :
    (dat1 (F := Ideal) V c).arrAt 1 cfg1.N = Cert.Joint.lsmZ2 (R := 256) (C := 1024) (V c main_v1) :=
  (dat1 (F := Ideal) V c).arrAt_eq_of_cover 1 (Cert.Joint.lsmZ2 (R := 256) (C := 1024) (V c main_v1))
    (fun t _ => flushed_eq V c t) rows_covered

end Cert.KernelIdeal.Normalize1

end
-- ==== Proof.BlockJoint.lean ====
/-
  One block of the broadcast-add kernel, read at the exact values: the loaded `[1, 32, 1024]` block gets a unit axis
  in position 2 and is repeated 64 times along it, the loaded `[1, 64, 1024]` block gets a unit axis in position 1 and is
  repeated 32 times along it, and the two are added: entry (a, t, u, v) is `x0[a, t, v] + x1[a, u, v]`.
-/
import proofs.«173288_j22462678958222_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Blocks

open Idealize.ShloMosaic Idealize.ShloMosaic.ValueIdx Cert.KernelIdeal Cert.KernelIdeal.Gen

/-- The first operand's block, given a unit axis in position 2 and repeated along it: entry (a, t, u, v) is the block's
    (a, t, v). The repeat reads coordinate 0 on the unit axis; inserting a unit axis keeps the row-major position,
    `(a · 32 + t) · 1024 + v` on both sides. -/
theorem left_apply (x0 : Vec Ideal S1x32x1024 .f32) (a : Fin 1) (t : Fin 32) (u : Fin 64) (v : Fin 1024) :
    broadcastTo S1x32x64x1024
        (shapeCast S1x32x1x1024 (shapeCast S1x32x1024 x0 shapeCasts_S1x32x1024_S1x32x1024) shapeCasts_S1x32x1024_S1x32x1x1024)
        broadcasts_S1x32x1x1024_S1x32x64x1024 (ix4 a t u v) = x0 (ix3 a t v) := by
  rw [shapeCast_self]
  refine (broadcastTo_apply _ _ (ix4 a t u v) (ix4 a t (0 : Fin 1) v) ?_).trans ?_
  · intro b
    match b with
    | ⟨0, _⟩ => exact Nat.lt_one_iff.mp a.isLt
    | ⟨1, _⟩ => rfl
    | ⟨2, _⟩ => rfl
    | ⟨3, _⟩ => rfl
  · refine shapeCast_apply _ _ (ix4 a t (0 : Fin 1) v) (ix3 a t v) ?_
    rw [Shape.rowMajor_val_three, Shape.rowMajor_val_four]
    show (a.val * 32 + t.val) * 1024 + v.val = ((a.val * 32 + t.val) * 1 + 0) * 1024 + v.val
    omega

/-- The second operand's block, given a unit axis in position 1 and repeated along it: entry (a, t, u, v) is the block's
    (a, u, v). The row-major position is `(a · 64 + u) · 1024 + v` on both sides. -/
theorem right_apply (x1 : Vec Ideal S1x64x1024 .f32) (a : Fin 1) (t : Fin 32) (u : Fin 64) (v : Fin 1024) :
    broadcastTo S1x32x64x1024
        (shapeCast S1x1x64x1024 (shapeCast S1x64x1024 x1 shapeCasts_S1x64x1024_S1x64x1024) shapeCasts_S1x64x1024_S1x1x64x1024)
        broadcasts_S1x1x64x1024_S1x32x64x1024 (ix4 a t u v) = x1 (ix3 a u v) := by
  rw [shapeCast_self]
  refine (broadcastTo_apply _ _ (ix4 a t u v) (ix4 a (0 : Fin 1) u v) ?_).trans ?_
  · intro b
    match b with
    | ⟨0, _⟩ => exact Nat.lt_one_iff.mp a.isLt
    | ⟨1, _⟩ => rfl
    | ⟨2, _⟩ => rfl
    | ⟨3, _⟩ => rfl
  · refine shapeCast_apply _ _ (ix4 a (0 : Fin 1) u v) (ix3 a u v) ?_
    rw [Shape.rowMajor_val_three, Shape.rowMajor_val_four]
    show (a.val * 64 + u.val) * 1024 + v.val = ((a.val * 1 + 0) * 64 + u.val) * 1024 + v.val
    omega

/-- The stored value at (a, t, u, v). -/
theorem k2_pay1_apply (x0 : Vec Ideal S1x32x1024 .f32) (x1 : Vec Ideal S1x64x1024 .f32)
    (a : Fin 1) (t : Fin 32) (u : Fin 64) (v : Fin 1024) :
    k2_pay1 (F := Ideal) x0 x1 (ix4 a t u v) = x0 (ix3 a t v) + x1 (ix3 a u v) := by
  unfold k2_pay1
  refine (addf_apply _ _ (ix4 a t u v)).trans ?_
  exact congrArg₂ (· + ·) (left_apply x0 a t u v) (right_apply x1 a t u v)

end Cert.KernelIdeal.Blocks

end
-- ==== Proof.BroadcastAdd.lean ====
/-
  The broadcast-add call over its whole output array. Grid point (b, s) loads rows `32 s … 32 s + 31` of batch `b` of the
  first operand and all 64 rows of batch `b` of the second, and writes `a[b, 32 s + t, v] + p[b, u, v]` to the output block
  at (b, 32 s + t, u, v). The 4 × 16 blocks tile the `[4, 512, 64, 1024]` output.
-/
import proofs.«173288_j22462678958222_1_alg».proof.Proof.Gen.KernelIdeal.Frame
import proofs.«173288_j22462678958222_1_alg».proof.Proof.RowLogSoftmax
import proofs.«173288_j22462678958222_1_alg».proof.Proof.BlockJoint
import Idealize.ShloMosaic.Lib.Pipeline.Value
import Idealize.ShloMosaic.Lib.ValueIdx

noncomputable section

namespace Cert.KernelIdeal.BroadcastAdd

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The printed index maps, decided once over the 4 × 16 grid: point `t` has coordinates (t / 16, t % 16); the output's
    block index is (t / 16, t % 16, 0, 0), the first operand's (t / 16, t % 16, 0), the second's (t / 16, 0, 0). -/
theorem block_indices : ∀ t : Fin cfg2.N,
    win2_2.index t (0 : Fin 4) = t.val / 16 ∧ win2_2.index t (1 : Fin 4) = t.val % 16
    ∧ win2_2.index t (2 : Fin 4) = 0 ∧ win2_2.index t (3 : Fin 4) = 0
    ∧ win2_0.index t (0 : Fin 3) = t.val / 16 ∧ win2_0.index t (1 : Fin 3) = t.val % 16 ∧ win2_0.index t (2 : Fin 3) = 0
    ∧ win2_1.index t (0 : Fin 3) = t.val / 16 ∧ win2_1.index t (1 : Fin 3) = 0 ∧ win2_1.index t (2 : Fin 3) = 0 :=
  (by decide +kernel : ∀ t : Fin grid2.N, _)

/-- The first operand's block at point `t` is batch `t / 16`, rows `32 (t % 16) … 32 (t % 16) + 31`, of its array:
    a block's coordinate is block index × block size + the coordinate inside the block. -/
theorem block0_apply (c : Dev nD) (t : Fin cfg2.N) (x : S1x32x1024.Idx) (k : S4x512x1024.Idx)
    (h0 : (k 0).val = t.val / 16 + (x 0).val) (h1 : (k 1).val = 32 * (t.val % 16) + (x 1).val) (h2 : (k 2).val = (x 2).val) :
    (iblk2 V c 0 t : Vec Ideal S1x32x1024 .f32) x = (V c main_v4 : S4x512x1024.Idx → Elt Ideal .f32) k := by
  obtain ⟨-, -, -, -, e0, e1, e2, -, -, -⟩ := block_indices t
  unfold iblk2
  rw [View.read_apply]
  show V c main_v4 _ = V c main_v4 _
  congr 1
  funext a
  apply Fin.ext
  match a with
  | ⟨0, _⟩ => show win2_0.index t (0 : Fin 3) * 1 + 1 * (x 0).val = (k 0).val; rw [e0, h0]; omega
  | ⟨1, _⟩ => show win2_0.index t (1 : Fin 3) * 32 + 1 * (x 1).val = (k 1).val; rw [e1, h1]; omega
  | ⟨2, _⟩ => show win2_0.index t (2 : Fin 3) * 1024 + 1 * (x 2).val = (k 2).val; rw [e2, h2]; omega

/-- The second operand's block at point `t` is the whole of batch `t / 16` of its array. -/
theorem block1_apply (c : Dev nD) (t : Fin cfg2.N) (x : S1x64x1024.Idx) (k : S4x64x1024.Idx)
    (h0 : (k 0).val = t.val / 16 + (x 0).val) (h1 : (k 1).val = (x 1).val) (h2 : (k 2).val = (x 2).val) :
    (iblk2 V c 1 t : Vec Ideal S1x64x1024 .f32) x = (V c main_v5 : S4x64x1024.Idx → Elt Ideal .f32) k := by
  obtain ⟨-, -, -, -, -, -, -, e0, e1, e2⟩ := block_indices t
  unfold iblk2
  rw [View.read_apply]
  show V c main_v5 _ = V c main_v5 _
  congr 1
  funext a
  apply Fin.ext
  match a with
  | ⟨0, _⟩ => show win2_1.index t (0 : Fin 3) * 1 + 1 * (x 0).val = (k 0).val; rw [e0, h0]; omega
  | ⟨1, _⟩ => show win2_1.index t (1 : Fin 3) * 64 + 1 * (x 1).val = (k 1).val; rw [e1, h1]; omega
  | ⟨2, _⟩ => show win2_1.index t (2 : Fin 3) * 1024 + 1 * (x 2).val = (k 2).val; rw [e2, h2]; omega

/-- What point `t` stores at an index of its block is the broadcast sum at the array index under it:
    block index (a, r, u, v) of point (b, s) sits at array index (b, 32 s + r, u, v). -/
theorem point_eq (c : Dev nD) (t : Fin cfg2.N) (y : S1x32x64x1024.Idx) :
    k2_pay1 (F := Ideal) (iblk2 V c 0 t) (iblk2 V c 1 t) y
      = Cert.Joint.bsum (B := 4) (T := 512) (U := 64) (V := 1024) (V c main_v4) (V c main_v5) (((cfg2.win 2).blk t).view.emb y) := by
  obtain ⟨a, r, u, v, rfl⟩ : ∃ (a : Fin 1) (r : Fin 32) (u : Fin 64) (v : Fin 1024), y = ix4 a r u v :=
    ⟨y 0, y 1, y 2, y 3, eq_ix4 y⟩
  obtain ⟨f0, f1, f2, f3, -⟩ := block_indices t
  refine (Blocks.k2_pay1_apply _ _ a r u v).trans ?_
  unfold Cert.Joint.bsum
  refine congrArg₂ (· + ·) (block0_apply V c t (ix3 a r v) _ ?_ ?_ ?_) (block1_apply V c t (ix3 a u v) _ ?_ ?_ ?_)
  · show win2_2.index t (0 : Fin 4) * 1 + 1 * a.val = t.val / 16 + a.val; rw [f0]; omega
  · show win2_2.index t (1 : Fin 4) * 32 + 1 * r.val = 32 * (t.val % 16) + r.val; rw [f1]; omega
  · show win2_2.index t (3 : Fin 4) * 1024 + 1 * v.val = v.val; rw [f3]; omega
  · show win2_2.index t (0 : Fin 4) * 1 + 1 * a.val = t.val / 16 + a.val; rw [f0]; omega
  · show win2_2.index t (2 : Fin 4) * 64 + 1 * u.val = u.val; rw [f2]; omega
  · show win2_2.index t (3 : Fin 4) * 1024 + 1 * v.val = v.val; rw [f3]; omega

/-- What point `t` writes back is block `t` of the broadcast sum of the two arrays as the call found them. -/
theorem flushed_eq (c : Dev nD) (t : Fin cfg2.N) :
    (dat2 (F := Ideal) V c).flushed 2 t = ((cfg2.win 2).blk t).view.read (Elt Ideal)
      (Cert.Joint.bsum (B := 4) (T := 512) (U := 64) (V := 1024) (V c main_v4) (V c main_v5)) := by
  show (cfg2.win 2).cut (grid2.coords t) ((dat2 V c).after 2 t) = _
  rw [after2_2]
  unfold out2_2
  rw [View.canon_unit_zero zero4]
  simp only [View.ld_unit_zero (S := S1x32x1024) zero3, View.ld_unit_zero (S := S1x64x1024) zero3]
  funext j
  exact point_eq V c t j

/-- An index of the array is in point `t`'s block iff each coordinate is in the block's range on its axis. -/
theorem mem_block (t : Fin cfg2.N) (i : S4x512x64x1024.Idx) :
    i ∈ ((cfg2.win 2).blk t).view.set ↔ ∀ a : Fin 4, win2_2.index t a * S1x32x64x1024.size a ≤ (i a).val ∧ (i a).val < win2_2.index t a * S1x32x64x1024.size a + S1x32x64x1024.size a := by
  show i ∈ ((View.whole main_v6).slice (win2_2.rect t)).set ↔ _
  rw [View.set_slice_whole, Rect.mem_set_unit]
  exact Iff.rfl

/-- The 4 × 16 blocks tile the array: index (b, q, u, v) lies in the block of the point with coordinates (b, q / 32). -/
theorem cover (i : S4x512x64x1024.Idx) :
    ∃ t : Fin cfg2.N, (cfg2.win 2).flush t = true ∧ i ∈ ((cfg2.win 2).blk t).view.set := by
  have h0 : (i 0).val < 4 := (i 0).isLt
  have h1 : (i 1).val < 512 := (i 1).isLt
  have h2 : (i 2).val < 64 := (i 2).isLt
  have h3 : (i 3).val < 1024 := (i 3).isLt
  have hN : (i 0).val * 16 + (i 1).val / 32 < cfg2.N := by show _ < 64; omega
  obtain ⟨f0, f1, f2, f3, -⟩ := block_indices ⟨(i 0).val * 16 + (i 1).val / 32, hN⟩
  have g0 : win2_2.index ⟨(i 0).val * 16 + (i 1).val / 32, hN⟩ (0 : Fin 4) = ((i 0).val * 16 + (i 1).val / 32) / 16 := f0
  have g1 : win2_2.index ⟨(i 0).val * 16 + (i 1).val / 32, hN⟩ (1 : Fin 4) = ((i 0).val * 16 + (i 1).val / 32) % 16 := f1
  refine ⟨⟨(i 0).val * 16 + (i 1).val / 32, hN⟩, flush2_2 _, ?_⟩
  rw [mem_block]
  intro a
  match a with
  | ⟨0, _⟩ =>
    show win2_2.index _ (0 : Fin 4) * 1 ≤ (i 0).val ∧ (i 0).val < win2_2.index _ (0 : Fin 4) * 1 + 1
    rw [g0]; omega
  | ⟨1, _⟩ =>
    show win2_2.index _ (1 : Fin 4) * 32 ≤ (i 1).val ∧ (i 1).val < win2_2.index _ (1 : Fin 4) * 32 + 32
    rw [g1]; omega
  | ⟨2, _⟩ =>
    show win2_2.index _ (2 : Fin 4) * 64 ≤ (i 2).val ∧ (i 2).val < win2_2.index _ (2 : Fin 4) * 64 + 64
    rw [f2]; omega
  | ⟨3, _⟩ =>
    show win2_2.index _ (3 : Fin 4) * 1024 ≤ (i 3).val ∧ (i 3).val < win2_2.index _ (3 : Fin 4) * 1024 + 1024
    rw [f3]; omega

/-- After the call the output array holds the broadcast sum of the two input arrays as the call found them. -/
theorem array_eq (c : Dev nD) :
    (dat2 (F := Ideal) V c).arrAt 2 cfg2.N = Cert.Joint.bsum (B := 4) (T := 512) (U := 64) (V := 1024) (V c main_v4) (V c main_v5) :=
  (dat2 (F := Ideal) V c).arrAt_eq_of_cover 2 _ (fun t _ => flushed_eq V c t) cover

end Cert.KernelIdeal.BroadcastAdd

end
-- ==== Proof.KernelValue.lean ====
/-
  The kernel program's result array as a function of its two arguments.

  The program reshapes the logits `[4, 512, 1024]` and `[4, 64, 1024]` to matrices `[2048, 1024]` and `[256, 1024]` (rows
  are the (batch, step) pairs in row-major order), normalises the rows of each by a grid of blocks, reshapes the two
  results back, and adds them with broadcasting. A row-major reshape that keeps the last axis sends row `b · T + t` of the
  matrix to row (b, t) of the rank-3 array, and a row's log-softmax reads that row only; so normalising the matrix's rows
  and reshaping back is normalising the rank-3 array along its last axis. With the three calls' whole-array values this
  gives the joint output function.
-/
import proofs.«173288_j22462678958222_1_alg».proof.Proof.Gen.KernelIdeal.Frame
import proofs.«173288_j22462678958222_1_alg».proof.Proof.RowLogSoftmax
import proofs.«173288_j22462678958222_1_alg».proof.Proof.Normalize0
import proofs.«173288_j22462678958222_1_alg».proof.Proof.Normalize1
import proofs.«173288_j22462678958222_1_alg».proof.Proof.BroadcastAdd
import Idealize.ShloMosaic.Lib.Pipeline.Value
import Idealize.ShloMosaic.Lib.ValueIdx
import Idealize.ShloMosaic.Lib.StableHlo.Run

noncomputable section

namespace Cert.Joint

open Idealize.ShloMosaic Idealize.ShloMosaic.ValueIdx

/-- Row `b · B + t` of the matrix is below its row count. -/
theorem row_lt {A B R : Nat} (hR : R = A * B) (b : Fin A) (t : Fin B) : b.val * B + t.val < R := by
  subst hR
  calc b.val * B + t.val < b.val * B + B := Nat.add_lt_add_left t.isLt _
    _ = (b.val + 1) * B := (Nat.succ_mul _ _).symm
    _ ≤ A * B := Nat.mul_le_mul_right _ b.isLt

/-- Normalising the rows of the reshaped matrix and reshaping back is normalising the rank-3 array along its last axis. -/
theorem lsm2_reshape {A B C R : Nat} (x : (⟨3, ![A, B, C]⟩ : Shape).Idx → EReal)
    (h : (⟨3, ![A, B, C]⟩ : Shape).ShapeCasts ⟨2, ![R, C]⟩) (h' : (⟨2, ![R, C]⟩ : Shape).ShapeCasts ⟨3, ![A, B, C]⟩)
    (hR : R = A * B) :
    shapeCast ⟨3, ![A, B, C]⟩ (lsm2 (shapeCast ⟨2, ![R, C]⟩ x h)) h' = lsm3 x := by
  funext i
  obtain ⟨b, t, v, rfl⟩ : ∃ (b : Fin A) (t : Fin B) (v : Fin C), i = ix3 b t v := ⟨i 0, i 1, i 2, eq_ix3 i⟩
  have e : ∀ k : Fin C, shapeCast ⟨2, ![R, C]⟩ x h (ix2 (⟨b.val * B + t.val, row_lt hR b t⟩ : Fin R) k) = x (ix3 b t k) := fun k =>
    shapeCast_apply x h _ _ (by rw [Shape.rowMajor_val_three, Shape.rowMajor_val_two]; rfl)
  refine (shapeCast_apply _ h' (ix3 b t v) (ix2 (⟨b.val * B + t.val, row_lt hR b t⟩ : Fin R) v)
    (by rw [Shape.rowMajor_val_two, Shape.rowMajor_val_three]; rfl)).trans ?_
  exact rowLogSoftmax_congr e v

/-- The same with column 0 zeroed: the zeroing acts on the column index, which the reshape keeps. -/
theorem lsmZ2_reshape {A B C R : Nat} (x : (⟨3, ![A, B, C]⟩ : Shape).Idx → EReal)
    (h : (⟨3, ![A, B, C]⟩ : Shape).ShapeCasts ⟨2, ![R, C]⟩) (h' : (⟨2, ![R, C]⟩ : Shape).ShapeCasts ⟨3, ![A, B, C]⟩)
    (hR : R = A * B) :
    shapeCast ⟨3, ![A, B, C]⟩ (lsmZ2 (shapeCast ⟨2, ![R, C]⟩ x h)) h' = lsmZ3 x := by
  funext i
  obtain ⟨b, t, v, rfl⟩ : ∃ (b : Fin A) (t : Fin B) (v : Fin C), i = ix3 b t v := ⟨i 0, i 1, i 2, eq_ix3 i⟩
  have e : ∀ k : Fin C, shapeCast ⟨2, ![R, C]⟩ x h (ix2 (⟨b.val * B + t.val, row_lt hR b t⟩ : Fin R) k) = x (ix3 b t k) := fun k =>
    shapeCast_apply x h _ _ (by rw [Shape.rowMajor_val_three, Shape.rowMajor_val_two]; rfl)
  refine (shapeCast_apply _ h' (ix3 b t v) (ix2 (⟨b.val * B + t.val, row_lt hR b t⟩ : Fin R) v)
    (by rw [Shape.rowMajor_val_two, Shape.rowMajor_val_three]; rfl)).trans ?_
  exact rowLogSoftmaxZ_congr e v

end Cert.Joint

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The host reshapes, read through the boundary contents -/

/-- The first call's input array is the first argument reshaped to a matrix. -/
theorem tn_matrix (c : Dev nD) :
    V1 m ρ c main_v0 = shapeCast S2048x1024 (m ((c : Thread nD τ).loc main_arg0)) shapeCasts_S4x512x1024_S2048x1024 := by
  show StableHlo.after hostOps0 (W0 m ρ c) (Proc.devRef .tc main_v0) = _
  after_results
  rfl

/-- The second call's input array is the second argument reshaped to a matrix (the first call does not touch it). -/
theorem pn_matrix (c : Dev nD) :
    V2 m ρ c main_v1 = shapeCast S256x1024 (m ((c : Thread nD τ).loc main_arg1)) shapeCasts_S4x64x1024_S256x1024 := by
  refine (W2_of_ne m ρ c main_v1 (by decide)).trans ?_
  show StableHlo.after hostOps0 (W0 m ρ c) (Proc.devRef .tc main_v1) = _
  after_results
  rfl

/-- The first call's output array when the second call has ended: the rows of the first input normalised. -/
theorem tn_normalised (c : Dev nD) :
    W3 m ρ c (Proc.devRef .tc main_v2) = Cert.Joint.lsm2 (R := 2048) (C := 1024) (V1 m ρ c main_v0) :=
  ((W3_of_ne m ρ c main_v2 (by decide)).trans (W2_arr m ρ c 1)).trans (Normalize0.array_eq (V1 m ρ) c)

/-- The second call's output array: the rows of the second input normalised, column 0 zeroed. -/
theorem pn_normalised (c : Dev nD) :
    W3 m ρ c (Proc.devRef .tc main_v3) = Cert.Joint.lsmZ2 (R := 256) (C := 1024) (V2 m ρ c main_v1) :=
  (W3_arr m ρ c 1).trans (Normalize1.array_eq (V2 m ρ) c)

/-- The third call's first input: the first call's output reshaped back to rank 3. -/
theorem tn_back (c : Dev nD) :
    V4 m ρ c main_v4 = shapeCast S4x512x1024 (W3 m ρ c (Proc.devRef .tc main_v2)) shapeCasts_S2048x1024_S4x512x1024 := by
  show StableHlo.after hostOps2 (W3 m ρ c) (Proc.devRef .tc main_v4) = _
  after_results
  rfl

/-- The third call's second input: the second call's output reshaped back to rank 3. -/
theorem pn_back (c : Dev nD) :
    V4 m ρ c main_v5 = shapeCast S4x64x1024 (W3 m ρ c (Proc.devRef .tc main_v3)) shapeCasts_S256x1024_S4x64x1024 := by
  show StableHlo.after hostOps2 (W3 m ρ c) (Proc.devRef .tc main_v5) = _
  after_results
  rfl

/-! ## The result -/

/-- The result array at the last boundary is the joint output function of the two arguments. -/
theorem result_eq (c : Dev nD) :
    W5 m ρ c (Proc.devRef .tc main_v6)
      = Cert.Joint.joint (m ((c : Thread nD τ).loc main_arg0)) (m ((c : Thread nD τ).loc main_arg1)) := by
  refine ((W5_arr m ρ c 2).trans (BroadcastAdd.array_eq (V4 m ρ) c)).trans ?_
  rw [tn_back, pn_back, tn_normalised, pn_normalised, tn_matrix, pn_matrix]
  unfold Cert.Joint.joint
  rw [← Cert.Joint.lsm2_reshape (m ((c : Thread nD τ).loc main_arg0)) shapeCasts_S4x512x1024_S2048x1024 shapeCasts_S2048x1024_S4x512x1024 rfl,
    ← Cert.Joint.lsmZ2_reshape (m ((c : Thread nD τ).loc main_arg1)) shapeCasts_S4x64x1024_S256x1024 shapeCasts_S256x1024_S4x64x1024 rfl]

end Cert.KernelIdeal.Result

end
-- ==== Proof.ReferenceRun.lean ====
/-
  The reference program's run, read back: every weakly fair execution of its @main terminates with the result array
  at the last stage's value of the two arguments, the arguments unchanged.

  @main is a straight line of 39 host operations, and the contents of the buffers after it are the fold of the
  operations' results over the launch contents. The line is read in three stretches: the fifteen operations of the first
  log-softmax (they write the first normalised array from the first argument and touch nothing the later stretches read),
  the fifteen of the second (the same for the second argument), and the nine that zero column 0 — a block of zeros joined
  in front of columns 1 … 1023 —, insert the unit axes, repeat along them and add. The third stretch is read at ARBITRARY
  contents of the two normalised arrays, so that the joined pieces are variables; the first two are read as the stages
  `val_main_v0`, `val_main_v1`. An operation inlined from a called function moves its operands from each buffer's own
  type to the tensor type and back; such a round trip is the identity (`ofBuf_toBuf`).
-/
import proofs.«173288_j22462678958222_1_alg».proof.Proof.RefRead
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The first log-softmax: the fifteen operations inlined from its call, on the first argument. -/
abbrev opsTn : List (HloOp τ sig (Elt F)) :=
  [ TRef.nullary (TRef.of (T := ⟨S_, .f32⟩) main_call0_cst) (constant S_ .f32 0xFF800000#32),
    TRef.binary (TRef.of (T := ⟨S4x512x1024, .f32⟩) main_arg0) (TRef.of (T := ⟨S_, .f32⟩) main_call0_cst) (TRef.of (T := ⟨S4x512, .f32⟩) main_call0_v0) (fun x v => Host.reduce FloatOps.maximumf x v reducesTo_S4x512x1024_S4x512_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S4x512, .f32⟩) main_call0_v1) (broadcastInDim S4x512 ![] bcast_S_S4x512),
    TRef.binary (TRef.of (T := ⟨S4x512, .f32⟩) main_call0_v1) (TRef.of (T := ⟨S4x512, .f32⟩) main_call0_v0) (TRef.of (T := ⟨S4x512, .f32⟩) main_call0_v2) maximumf,
    TRef.unary (TRef.of (T := ⟨S4x512, .f32⟩) main_call0_v2) (TRef.of (T := ⟨S4x512x1, .f32⟩) main_call0_v3) (broadcastInDim S4x512x1 ![0, 1] bcast_S4x512_S4x512x1_0_1),
    TRef.unary (TRef.of (T := ⟨S4x512x1, .f32⟩) main_call0_v3) (TRef.of (T := ⟨S4x512x1024, .f32⟩) main_call0_v4) (broadcastInDim S4x512x1024 ![0, 1, 2] bcast_S4x512x1_S4x512x1024_0_1_2),
    TRef.binary (TRef.of (T := ⟨S4x512x1024, .f32⟩) main_arg0) (TRef.of (T := ⟨S4x512x1024, .f32⟩) main_call0_v4) (TRef.of (T := ⟨S4x512x1024, .f32⟩) main_call0_v5) subf,
    TRef.unary (TRef.of (T := ⟨S4x512x1024, .f32⟩) main_call0_v5) (TRef.of (T := ⟨S4x512x1024, .f32⟩) main_call0_v6) Host.exp,
    TRef.nullary (TRef.of (T := ⟨S_, .f32⟩) main_call0_cst_1) (constant S_ .f32 0x00000000#32),
    TRef.binary (TRef.of (T := ⟨S4x512x1024, .f32⟩) main_call0_v6) (TRef.of (T := ⟨S_, .f32⟩) main_call0_cst_1) (TRef.of (T := ⟨S4x512, .f32⟩) main_call0_v7) (fun x v => Host.reduceAdd x v reducesTo_S4x512x1024_S4x512_d2 h_S_),
    TRef.unary (TRef.of (T := ⟨S4x512, .f32⟩) main_call0_v7) (TRef.of (T := ⟨S4x512x1, .f32⟩) main_call0_v8) (broadcastInDim S4x512x1 ![0, 1] bcast_S4x512_S4x512x1_0_1),
    TRef.unary (TRef.of (T := ⟨S4x512x1, .f32⟩) main_call0_v8) (TRef.of (T := ⟨S4x512x1, .f32⟩) main_call0_v9) Host.log,
    TRef.unary (TRef.of (T := ⟨S4x512x1, .f32⟩) main_call0_v9) (TRef.of (T := ⟨S4x512x1024, .f32⟩) main_call0_v10) (broadcastInDim S4x512x1024 ![0, 1, 2] bcast_S4x512x1_S4x512x1024_0_1_2),
    TRef.binary (TRef.of (T := ⟨S4x512x1024, .f32⟩) main_call0_v5) (TRef.of (T := ⟨S4x512x1024, .f32⟩) main_call0_v10) (TRef.of (T := ⟨S4x512x1024, .f32⟩) main_v0) subf ]

/-- The second log-softmax: the fifteen operations inlined from its call, on the second argument. -/
abbrev opsPn : List (HloOp τ sig (Elt F)) :=
  [ TRef.nullary (TRef.of (T := ⟨S_, .f32⟩) main_call1_cst) (constant S_ .f32 0xFF800000#32),
    TRef.binary (TRef.of (T := ⟨S4x64x1024, .f32⟩) main_arg1) (TRef.of (T := ⟨S_, .f32⟩) main_call1_cst) (TRef.of (T := ⟨S4x64, .f32⟩) main_call1_v0) (fun x v => Host.reduce FloatOps.maximumf x v reducesTo_S4x64x1024_S4x64_d2 h_S_),
    TRef.nullary (TRef.of (T := ⟨S_, .f32⟩) main_call1_cst_0) (constant S_ .f32 0xFF800000#32),
    TRef.unary (TRef.of (T := ⟨S_, .f32⟩) main_call1_cst_0) (TRef.of (T := ⟨S4x64, .f32⟩) main_call1_v1) (broadcastInDim S4x64 ![] bcast_S_S4x64),
    TRef.binary (TRef.of (T := ⟨S4x64, .f32⟩) main_call1_v1) (TRef.of (T := ⟨S4x64, .f32⟩) main_call1_v0) (TRef.of (T := ⟨S4x64, .f32⟩) main_call1_v2) maximumf,
    TRef.unary (TRef.of (T := ⟨S4x64, .f32⟩) main_call1_v2) (TRef.of (T := ⟨S4x64x1, .f32⟩) main_call1_v3) (broadcastInDim S4x64x1 ![0, 1] bcast_S4x64_S4x64x1_0_1),
    TRef.unary (TRef.of (T := ⟨S4x64x1, .f32⟩) main_call1_v3) (TRef.of (T := ⟨S4x64x1024, .f32⟩) main_call1_v4) (broadcastInDim S4x64x1024 ![0, 1, 2] bcast_S4x64x1_S4x64x1024_0_1_2),
    TRef.binary (TRef.of (T := ⟨S4x64x1024, .f32⟩) main_arg1) (TRef.of (T := ⟨S4x64x1024, .f32⟩) main_call1_v4) (TRef.of (T := ⟨S4x64x1024, .f32⟩) main_call1_v5) subf,
    TRef.unary (TRef.of (T := ⟨S4x64x1024, .f32⟩) main_call1_v5) (TRef.of (T := ⟨S4x64x1024, .f32⟩) main_call1_v6) Host.exp,
    TRef.nullary (TRef.of (T := ⟨S_, .f32⟩) main_call1_cst_1) (constant S_ .f32 0x00000000#32),
    TRef.binary (TRef.of (T := ⟨S4x64x1024, .f32⟩) main_call1_v6) (TRef.of (T := ⟨S_, .f32⟩) main_call1_cst_1) (TRef.of (T := ⟨S4x64, .f32⟩) main_call1_v7) (fun x v => Host.reduceAdd x v reducesTo_S4x64x1024_S4x64_d2 h_S_),
    TRef.unary (TRef.of (T := ⟨S4x64, .f32⟩) main_call1_v7) (TRef.of (T := ⟨S4x64x1, .f32⟩) main_call1_v8) (broadcastInDim S4x64x1 ![0, 1] bcast_S4x64_S4x64x1_0_1),
    TRef.unary (TRef.of (T := ⟨S4x64x1, .f32⟩) main_call1_v8) (TRef.of (T := ⟨S4x64x1, .f32⟩) main_call1_v9) Host.log,
    TRef.unary (TRef.of (T := ⟨S4x64x1, .f32⟩) main_call1_v9) (TRef.of (T := ⟨S4x64x1024, .f32⟩) main_call1_v10) (broadcastInDim S4x64x1024 ![0, 1, 2] bcast_S4x64x1_S4x64x1024_0_1_2),
    TRef.binary (TRef.of (T := ⟨S4x64x1024, .f32⟩) main_call1_v5) (TRef.of (T := ⟨S4x64x1024, .f32⟩) main_call1_v10) (TRef.of (T := ⟨S4x64x1024, .f32⟩) main_v1) subf ]

/-- The rest of @main: column 0 zeroed, the unit axes, the two broadcasts and the sum. -/
abbrev opsTail : List (HloOp τ sig (Elt F)) :=
  [ nullary main_cst (constant S_ .f32 0x00000000#32),
    unary main_cst main_v2 (broadcastInDim S4x64x1 ![] bcast_S_S4x64x1 : (⟨S_, .f32⟩ : BufTy).Contents (Elt F) → (⟨S4x64x1, .f32⟩ : BufTy).Contents (Elt F)),
    unary main_v1 main_v3 ((extractStridedSlice S4x64x1023 ![0, 0, 1] · slices_S4x64x1024_S4x64x1023_0_0_1) : (⟨S4x64x1024, .f32⟩ : BufTy).Contents (Elt F) → (⟨S4x64x1023, .f32⟩ : BufTy).Contents (Elt F)),
    binary main_v2 main_v3 main_v4 ((fun a b => concatenate S4x64x1024 2 [⟨S4x64x1, a⟩, ⟨S4x64x1023, b⟩] concatenates_S4x64x1_S4x64x1023_S4x64x1024_d2) : (⟨S4x64x1, .f32⟩ : BufTy).Contents (Elt F) → (⟨S4x64x1023, .f32⟩ : BufTy).Contents (Elt F) → (⟨S4x64x1024, .f32⟩ : BufTy).Contents (Elt F)),
    unary main_v0 main_v5 (broadcastInDim S4x512x1x1024 ![0, 1, 3] bcast_S4x512x1024_S4x512x1x1024_0_1_3 : (⟨S4x512x1024, .f32⟩ : BufTy).Contents (Elt F) → (⟨S4x512x1x1024, .f32⟩ : BufTy).Contents (Elt F)),
    unary main_v4 main_v6 (broadcastInDim S4x1x64x1024 ![0, 2, 3] bcast_S4x64x1024_S4x1x64x1024_0_2_3 : (⟨S4x64x1024, .f32⟩ : BufTy).Contents (Elt F) → (⟨S4x1x64x1024, .f32⟩ : BufTy).Contents (Elt F)),
    unary main_v5 main_v7 (broadcastInDim S4x512x64x1024 ![0, 1, 2, 3] bcast_S4x512x1x1024_S4x512x64x1024_0_1_2_3 : (⟨S4x512x1x1024, .f32⟩ : BufTy).Contents (Elt F) → (⟨S4x512x64x1024, .f32⟩ : BufTy).Contents (Elt F)),
    unary main_v6 main_v8 (broadcastInDim S4x512x64x1024 ![0, 1, 2, 3] bcast_S4x1x64x1024_S4x512x64x1024_0_1_2_3 : (⟨S4x1x64x1024, .f32⟩ : BufTy).Contents (Elt F) → (⟨S4x512x64x1024, .f32⟩ : BufTy).Contents (Elt F)),
    binary main_v7 main_v8 main_v9 (addf : (⟨S4x512x64x1024, .f32⟩ : BufTy).Contents (Elt F) → (⟨S4x512x64x1024, .f32⟩ : BufTy).Contents (Elt F) → (⟨S4x512x64x1024, .f32⟩ : BufTy).Contents (Elt F)) ]

/-- Moving a value to a typed reference's buffer type and back is the identity. -/
theorem ofBuf_toBuf {T : BufTy} (x : TRef sig T) (v : T.Contents (Elt F)) : x.ofBuf (x.toBuf v) = v := by
  obtain ⟨r, rfl, _, _⟩ := x
  rfl

/-- The operation list is the three stretches in order. -/
theorem ops_split : (ops : List (HloOp τ sig (Elt F))) = opsTn ++ (opsPn ++ opsTail) := rfl

/-- After the first stretch the first normalised array holds its stage of the first argument. -/
theorem tn_result (V : Valuation τ sig (Elt F)) :
    after opsTn V (Proc.devRef .tc main_v0) = val_main_v0 (F := F) (V (Proc.devRef .tc main_arg0)) := by
  after_results_simp
  simp only [ofBuf_toBuf]
  rfl

/-- The first stretch does not write the second argument. -/
theorem tn_keeps_arg1 (V : Valuation τ sig (Elt F)) :
    after opsTn V (Proc.devRef .tc main_arg1) = V (Proc.devRef .tc main_arg1) := by
  after_results_simp <;> rfl

/-- After the second stretch the second normalised array holds its stage of the second argument. -/
theorem pn_result (V : Valuation τ sig (Elt F)) :
    after opsPn V (Proc.devRef .tc main_v1) = val_main_v1 (F := F) (V (Proc.devRef .tc main_arg1)) := by
  after_results_simp
  simp only [ofBuf_toBuf]
  rfl

/-- The second stretch does not write the first normalised array. -/
theorem pn_keeps_v0 (V : Valuation τ sig (Elt F)) :
    after opsPn V (Proc.devRef .tc main_v0) = V (Proc.devRef .tc main_v0) := by
  after_results_simp <;> rfl

/-- The last stretch as a function of the two normalised arrays: `a[b, t, v] + z[b, u, v]` over (b, t, u, v), where `z` is
    `p` with a block of zeros in place of column 0. -/
def tailOf (a : (⟨S4x512x1024, .f32⟩ : BufTy).Contents (Elt F)) (b : (⟨S4x64x1024, .f32⟩ : BufTy).Contents (Elt F)) :
    (⟨S4x512x64x1024, .f32⟩ : BufTy).Contents (Elt F) :=
  addf (broadcastInDim S4x512x64x1024 ![0, 1, 2, 3] bcast_S4x512x1x1024_S4x512x64x1024_0_1_2_3 (broadcastInDim S4x512x1x1024 ![0, 1, 3] bcast_S4x512x1024_S4x512x1x1024_0_1_3 a))
    (broadcastInDim S4x512x64x1024 ![0, 1, 2, 3] bcast_S4x1x64x1024_S4x512x64x1024_0_1_2_3 (broadcastInDim S4x1x64x1024 ![0, 2, 3] bcast_S4x64x1024_S4x1x64x1024_0_2_3
      (concatenate S4x64x1024 2 [⟨S4x64x1, broadcastInDim S4x64x1 ![] bcast_S_S4x64x1 (constant S_ .f32 0x00000000#32)⟩, ⟨S4x64x1023, extractStridedSlice S4x64x1023 ![0, 0, 1] b slices_S4x64x1024_S4x64x1023_0_0_1⟩] concatenates_S4x64x1_S4x64x1023_S4x64x1024_d2)))

/-- The last stage is the last stretch's function of the two normalised stages. -/
theorem val_main_v9_tail (x0 : (⟨S4x512x1024, .f32⟩ : BufTy).Contents (Elt F)) (x1 : (⟨S4x64x1024, .f32⟩ : BufTy).Contents (Elt F)) :
    val_main_v9 (F := F) x0 x1 = tailOf (val_main_v0 (F := F) x0) (val_main_v1 (F := F) x1) := rfl

/-- After the last stretch, from any contents, the result array holds that function of the two normalised arrays. -/
theorem tail_result (W : Valuation τ sig (Elt F)) :
    after opsTail W (Proc.devRef .tc main_v9) = tailOf (W (Proc.devRef .tc main_v0)) (W (Proc.devRef .tc main_v1)) := by
  after_results <;> rfl

/-- After the whole line the result array holds the last stage of the two arguments. -/
theorem after_ops_main_v9 (V : Valuation τ sig (Elt F)) :
    after ops V (Proc.devRef .tc main_v9)
      = val_main_v9 (F := F) (V (Proc.devRef .tc main_arg0)) (V (Proc.devRef .tc main_arg1)) := by
  rw [ops_split, after_append, after_append, val_main_v9_tail, tail_result, pn_keeps_v0, tn_result, pn_result, tn_keeps_arg1]

set_option maxHeartbeats 2000000 in
/-- On every device, from any memory with zero counters: every weakly fair execution of @main terminates with the result
    at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = val_main_v9 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v9).trans (after_ops_main_v9 _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HandRun

end
-- ==== Proof.ReferenceValue.lean ====
/-
  The reference program's result, read at the exact values, is the joint network's output function.

  Along the vocabulary axis each logit array goes through the same five steps: the row maximum `M` (a reduction from −∞,
  then one more maximum with −∞, which changes nothing), the shift `x − M`, the sum of the shifted exponentials (a reduction
  from 0), its logarithm, and the difference. The prediction side's column 0 is then replaced by zero — a block of zeros
  joined in front of columns 1 … 1023 —, both arrays get a unit axis and are repeated along it, and the two are added.
-/
import proofs.«173288_j22462678958222_1_alg».proof.Proof.RefRead
import proofs.«173288_j22462678958222_1_alg».proof.Proof.RowLogSoftmax
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.ReadP

/-- Dropping the vocabulary axis of either logit array leaves its (batch, step) pairs. -/
theorem red0 : S4x512x1024.Reduces [2] S4x512 := by decide
theorem red1 : S4x64x1024.Reduces [2] S4x64 := by decide

/-! ## The transcription side: log-softmax along the vocabulary axis -/

/-- The row maximum of the transcription logits: the reduction over the vocabulary axis is the fold of `max` from −∞ over the
    row's entries; the source index over (b, t) with coordinate k inserted is (b, t, k). -/
theorem rowmax0 (x0 : (⟨S4x512x1024, .f32⟩ : BufTy).Contents (Elt Ideal)) (b : Fin 4) (t : Fin 512) :
    val_main_call0_v0 (F := Ideal) x0 (ix2 b t) = Cert.Joint.rowMax (fun k : Fin 1024 => x0 (ix3 b t k)) := by
  unfold val_main_call0_v0
  have h := Host.reduce_eq_fold_single (α := Ideal .f32) (FloatOps.maximumf (F := Ideal) (φ := .f32)) x0
    (val_main_call0_cst (F := Ideal)) Gen.reducesTo_S4x512x1024_S4x512_d2 red0 Gen.h_S_ (ix2 b t)
  refine h.trans ?_
  have e : (x0 ∘ red0.lift (ix2 b t)) = fun k : Fin 1024 => x0 (ix3 b t k) :=
    funext fun k => congrArg x0 (funext fun a => Fin.ext (by match a with | ⟨0, _⟩ => rfl | ⟨1, _⟩ => rfl | ⟨2, _⟩ => rfl))
  rw [e]; rfl

/-- The shifted logit: the logit minus its row's maximum. The maximum is broadcast back along the vocabulary axis through
    a unit axis, and the extra maximum with −∞ changes nothing. -/
theorem shift0 (x0 : (⟨S4x512x1024, .f32⟩ : BufTy).Contents (Elt Ideal)) (b : Fin 4) (t : Fin 512) (v : Fin 1024) :
    val_main_call0_v5 (F := Ideal) x0 (ix3 b t v)
      = x0 (ix3 b t v) - Cert.Joint.rowMax (fun k : Fin 1024 => x0 (ix3 b t k)) := by
  have e : idx_main_call0_v3 (idx_main_call0_v4 (ix3 b t v)) = ix2 b t :=
    funext fun a => Fin.ext (by match a with | ⟨0, _⟩ => rfl | ⟨1, _⟩ => rfl)
  rw [val_main_call0_v5_apply, val_main_call0_v4_apply, val_main_call0_v3_apply, val_main_call0_v2_apply,
    val_main_call0_v1_apply, val_main_call0_cst_0_apply, e, rowmax0]
  simp only [Ideal.subf_def, Ideal.maximumf_def, Ideal.ofBits_def]
  rw [Cert.Joint.max_negInf_rowMax]

/-- The sum of the shifted exponentials along a row; the reduction starts from the zero word, which is 0. -/
theorem sumexp0 (x0 : (⟨S4x512x1024, .f32⟩ : BufTy).Contents (Elt Ideal)) (b : Fin 4) (t : Fin 512) :
    val_main_call0_v7 (F := Ideal) x0 (ix2 b t)
      = ∑ k : Fin 1024, Ideal.exp (x0 (ix3 b t k) - Cert.Joint.rowMax (fun j : Fin 1024 => x0 (ix3 b t j))) := by
  rw [val_main_call0_v7_apply, val_main_call0_cst_1_apply]
  simp only [Ideal.ofBits_def, Ideal.ofBits_zero_f32, zero_add]
  refine Finset.sum_congr rfl fun k _ => ?_
  have e : idx_main_call0_v7 (ix2 b t) k = ix3 b t k :=
    funext fun a => Fin.ext (by match a with | ⟨0, _⟩ => rfl | ⟨1, _⟩ => rfl | ⟨2, _⟩ => rfl)
  rw [e, val_main_call0_v6_apply, shift0, Ideal.hostUnary_exp_def]

/-- The transcription side's result is the row log-softmax: the shifted logit minus the logarithm of the row's sum of shifted exponentials, broadcast back along the vocabulary axis. -/
theorem tn_stage (x0 : (⟨S4x512x1024, .f32⟩ : BufTy).Contents (Elt Ideal)) :
    val_main_v0 (F := Ideal) x0 = Cert.Joint.lsm3 (A := 4) (B := 512) (C := 1024) x0 := by
  funext i
  obtain ⟨b, t, v, rfl⟩ : ∃ (b : Fin 4) (t : Fin 512) (v : Fin 1024), i = ix3 b t v := ⟨i 0, i 1, i 2, eq_ix3 i⟩
  have e : idx_main_call0_v8 (idx_main_call0_v10 (ix3 b t v)) = ix2 b t :=
    funext fun a => Fin.ext (by match a with | ⟨0, _⟩ => rfl | ⟨1, _⟩ => rfl)
  rw [val_main_v0_apply, shift0, val_main_call0_v10_apply, val_main_call0_v9_apply, val_main_call0_v8_apply, e,
    sumexp0]
  simp only [Ideal.subf_def, Ideal.hostUnary_log_def]
  rfl

/-! ## The prediction side: the same steps on the second array -/

/-- The row maximum of the prediction logits: the reduction over the vocabulary axis is the fold of `max` from −∞ over the
    row's entries; the source index over (b, u) with coordinate k inserted is (b, u, k). -/
theorem rowmax1 (x1 : (⟨S4x64x1024, .f32⟩ : BufTy).Contents (Elt Ideal)) (b : Fin 4) (u : Fin 64) :
    val_main_call1_v0 (F := Ideal) x1 (ix2 b u) = Cert.Joint.rowMax (fun k : Fin 1024 => x1 (ix3 b u k)) := by
  unfold val_main_call1_v0
  have h := Host.reduce_eq_fold_single (α := Ideal .f32) (FloatOps.maximumf (F := Ideal) (φ := .f32)) x1
    (val_main_call1_cst (F := Ideal)) Gen.reducesTo_S4x64x1024_S4x64_d2 red1 Gen.h_S_ (ix2 b u)
  refine h.trans ?_
  have e : (x1 ∘ red1.lift (ix2 b u)) = fun k : Fin 1024 => x1 (ix3 b u k) :=
    funext fun k => congrArg x1 (funext fun a => Fin.ext (by match a with | ⟨0, _⟩ => rfl | ⟨1, _⟩ => rfl | ⟨2, _⟩ => rfl))
  rw [e]; rfl

/-- The shifted logit: the logit minus its row's maximum. The maximum is broadcast back along the vocabulary axis through
    a unit axis, and the extra maximum with −∞ changes nothing. -/
theorem shift1 (x1 : (⟨S4x64x1024, .f32⟩ : BufTy).Contents (Elt Ideal)) (b : Fin 4) (u : Fin 64) (v : Fin 1024) :
    val_main_call1_v5 (F := Ideal) x1 (ix3 b u v)
      = x1 (ix3 b u v) - Cert.Joint.rowMax (fun k : Fin 1024 => x1 (ix3 b u k)) := by
  have e : idx_main_call1_v3 (idx_main_call1_v4 (ix3 b u v)) = ix2 b u :=
    funext fun a => Fin.ext (by match a with | ⟨0, _⟩ => rfl | ⟨1, _⟩ => rfl)
  rw [val_main_call1_v5_apply, val_main_call1_v4_apply, val_main_call1_v3_apply, val_main_call1_v2_apply,
    val_main_call1_v1_apply, val_main_call1_cst_0_apply, e, rowmax1]
  simp only [Ideal.subf_def, Ideal.maximumf_def, Ideal.ofBits_def]
  rw [Cert.Joint.max_negInf_rowMax]

/-- The sum of the shifted exponentials along a row; the reduction starts from the zero word, which is 0. -/
theorem sumexp1 (x1 : (⟨S4x64x1024, .f32⟩ : BufTy).Contents (Elt Ideal)) (b : Fin 4) (u : Fin 64) :
    val_main_call1_v7 (F := Ideal) x1 (ix2 b u)
      = ∑ k : Fin 1024, Ideal.exp (x1 (ix3 b u k) - Cert.Joint.rowMax (fun j : Fin 1024 => x1 (ix3 b u j))) := by
  rw [val_main_call1_v7_apply, val_main_call1_cst_1_apply]
  simp only [Ideal.ofBits_def, Ideal.ofBits_zero_f32, zero_add]
  refine Finset.sum_congr rfl fun k _ => ?_
  have e : idx_main_call1_v7 (ix2 b u) k = ix3 b u k :=
    funext fun a => Fin.ext (by match a with | ⟨0, _⟩ => rfl | ⟨1, _⟩ => rfl | ⟨2, _⟩ => rfl)
  rw [e, val_main_call1_v6_apply, shift1, Ideal.hostUnary_exp_def]

/-- The prediction side's result before its column 0 is replaced: the row log-softmax. -/
theorem pn_stage (x1 : (⟨S4x64x1024, .f32⟩ : BufTy).Contents (Elt Ideal)) :
    val_main_v1 (F := Ideal) x1 = Cert.Joint.lsm3 (A := 4) (B := 64) (C := 1024) x1 := by
  funext i
  obtain ⟨b, u, v, rfl⟩ : ∃ (b : Fin 4) (u : Fin 64) (v : Fin 1024), i = ix3 b u v := ⟨i 0, i 1, i 2, eq_ix3 i⟩
  have e : idx_main_call1_v8 (idx_main_call1_v10 (ix3 b u v)) = ix2 b u :=
    funext fun a => Fin.ext (by match a with | ⟨0, _⟩ => rfl | ⟨1, _⟩ => rfl)
  rw [val_main_v1_apply, shift1, val_main_call1_v10_apply, val_main_call1_v9_apply, val_main_call1_v8_apply, e,
    sumexp1]
  simp only [Ideal.subf_def, Ideal.hostUnary_log_def]
  rfl

/-- Column 0 replaced by zero: a block of zeros joined in front of columns 1 … 1023. At column 0 the joined array reads the
    zero block; at column q ≥ 1 it reads the slice at q − 1, which is the log-softmax's column 1 + (q − 1) = q. -/
theorem pn_zeroed (x1 : (⟨S4x64x1024, .f32⟩ : BufTy).Contents (Elt Ideal)) :
    val_main_v4 (F := Ideal) x1 = Cert.Joint.lsmZ3 (A := 4) (B := 64) (C := 1024) x1 := by
  funext i
  obtain ⟨b, u, v, rfl⟩ : ∃ (b : Fin 4) (u : Fin 64) (v : Fin 1024), i = ix3 b u v := ⟨i 0, i 1, i 2, eq_ix3 i⟩
  unfold val_main_v4
  by_cases hv : v.val = 0
  · refine (concatenate_pair_apply_left 2 (val_main_v2 (F := Ideal)) (val_main_v3 (F := Ideal) x1)
      Gen.concatenates_S4x64x1_S4x64x1023_S4x64x1024_d2 (ix3 b u v) rfl (ix3 b u (0 : Fin 1)) (fun a => by
        match a with
        | ⟨0, _⟩ => rfl
        | ⟨1, _⟩ => rfl
        | ⟨2, _⟩ => exact hv.symm)).trans ?_
    rw [val_main_v2_apply, val_main_cst_apply]
    simp only [Ideal.ofBits_def, Ideal.ofBits_zero_f32]
    show (0 : EReal) = Cert.Joint.rowLogSoftmaxZ _ v
    unfold Cert.Joint.rowLogSoftmaxZ
    rw [if_pos hv]
  · have hv1 : v.val - 1 < 1023 := by have := v.isLt; omega
    refine (concatenate_pair_apply_right 2 (val_main_v2 (F := Ideal)) (val_main_v3 (F := Ideal) x1)
      Gen.concatenates_S4x64x1_S4x64x1023_S4x64x1024_d2 (ix3 b u v) rfl rfl (ix3 b u (⟨v.val - 1, hv1⟩ : Fin 1023))
      (fun a ha => by
        match a with
        | ⟨0, _⟩ => rfl
        | ⟨1, _⟩ => rfl
        | ⟨2, _⟩ => exact absurd rfl ha)
      (by show v.val - 1 + 1 = v.val; omega)).trans ?_
    have e : idx_main_v3 (ix3 b u (⟨v.val - 1, hv1⟩ : Fin 1023)) = ix3 b u v :=
      funext fun a => Fin.ext (by
        match a with
        | ⟨0, _⟩ => rfl
        | ⟨1, _⟩ => rfl
        | ⟨2, _⟩ => show 1 + (v.val - 1) = v.val; omega)
    rw [val_main_v3_apply, e, pn_stage]
    show Cert.Joint.rowLogSoftmax _ v = Cert.Joint.rowLogSoftmaxZ _ v
    unfold Cert.Joint.rowLogSoftmaxZ
    rw [if_neg hv]

/-! ## The joint: both sides repeated along the other's step axis, and added -/

/-- The reference's result array, as a function of its two arguments, is the joint output. -/
theorem reference_eq (x0 : (⟨S4x512x1024, .f32⟩ : BufTy).Contents (Elt Ideal)) (x1 : (⟨S4x64x1024, .f32⟩ : BufTy).Contents (Elt Ideal)) :
    val_main_v9 (F := Ideal) x0 x1 = Cert.Joint.joint x0 x1 := by
  funext i
  obtain ⟨b, t, u, v, rfl⟩ : ∃ (b : Fin 4) (t : Fin 512) (u : Fin 64) (v : Fin 1024), i = ix4 b t u v :=
    ⟨i 0, i 1, i 2, i 3, eq_ix4 i⟩
  have e0 : idx_main_v5 (idx_main_v7 (ix4 b t u v)) = ix3 b t v :=
    funext fun a => Fin.ext (by match a with | ⟨0, _⟩ => rfl | ⟨1, _⟩ => rfl | ⟨2, _⟩ => rfl)
  have e1 : idx_main_v6 (idx_main_v8 (ix4 b t u v)) = ix3 b u v :=
    funext fun a => Fin.ext (by match a with | ⟨0, _⟩ => rfl | ⟨1, _⟩ => rfl | ⟨2, _⟩ => rfl)
  rw [val_main_v9_apply, val_main_v7_apply, val_main_v5_apply, e0, tn_stage, val_main_v8_apply, val_main_v6_apply, e1,
    pn_zeroed]
  rfl

end Cert.ReferenceIdeal.RefValue

end
-- ==== Proof.lean ====
/-
  The certificate of the joint network kernel against its reference.

  Both programs compute, over the extended reals, `out[b, t, u, v] = lsm(tn[b, t, ·]) v + lsmZ(pn[b, u, ·]) v`, where `lsm` is
  the log-softmax of a row — `(r k − M) − log ∑ⱼ exp (r j − M)` with `M` the row's maximum taken from −∞ — and `lsmZ` is the
  same with position 0 replaced by zero (RowLogSoftmax.lean).

  The kernel program does it in three grid calls between row-major reshapes: two calls normalise the rows of the
  `[2048, 1024]` and `[256, 1024]` matrices block by block (BlockSoftmax.lean for one block, Normalize0.lean and
  Normalize1.lean for the whole arrays), and the third adds the reshaped results with broadcasting (BlockJoint.lean,
  BroadcastAdd.lean); KernelValue.lean composes them, using that a row's log-softmax reads that row only, so that it
  commutes with a reshape keeping the last axis. The reference does the same on the rank-3 arrays directly, with the
  zeroed column written as a block of zeros joined in front of columns 1 … 1023 (ReferenceValue.lean over its run,
  ReferenceRun.lean). The same formula is reached on both sides, so no law of the extended reals beyond
  `max (−∞) M = M` and `0 + s = s` is used, and the precondition is not opened.

  The ideal pass rewrote nothing, so the idealisation conjunct is `True`.
-/
import proofs.«173288_j22462678958222_1_alg».proof.Defs
import proofs.«173288_j22462678958222_1_alg».proof.Proof.Gen.Kernel
import proofs.«173288_j22462678958222_1_alg».proof.Proof.Gen.Kernel.Frame
import proofs.«173288_j22462678958222_1_alg».proof.Proof.Gen.KernelIdeal
import proofs.«173288_j22462678958222_1_alg».proof.Proof.Gen.KernelIdeal.Frame
import proofs.«173288_j22462678958222_1_alg».proof.Proof.Gen.ReferenceIdeal
import proofs.«173288_j22462678958222_1_alg».proof.Proof.Gen.Pre_finite_inputs
import proofs.«173288_j22462678958222_1_alg».proof.Proof.KernelRun
import proofs.«173288_j22462678958222_1_alg».proof.Proof.KernelValue
import proofs.«173288_j22462678958222_1_alg».proof.Proof.ReferenceRun
import proofs.«173288_j22462678958222_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories agreeing on the two logit arrays, both programs end with the joint output function of those arrays in
    their result. -/
theorem algebraic : Cert.algebraic_KernelIdeal_ReferenceIdeal := by
  intro m ρ m' ρ' _ hagree
  refine ⟨fun c => Cert.Joint.joint (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Result.result_eq m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.HandRun.run (F := Ideal) m' ρ')
    rw [(hagree c).1, (hagree c).2]
    exact Cert.ReferenceIdeal.RefValue.reference_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
